-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S16000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S2000000 : Shape := ⟨1, ![2000000]⟩
abbrev S_ : Shape := ⟨0, ![]⟩
abbrev S2016000 : Shape := ⟨1, ![2016000]⟩
abbrev S1x2016000 : Shape := ⟨2, ![1, 2016000]⟩
abbrev S2x104x128 : Shape := ⟨3, ![2, 104, 128]⟩
abbrev S16000x64 : Shape := ⟨2, ![16000, 64]⟩
abbrev S1x16000 : Shape := ⟨2, ![1, 16000]⟩
abbrev S1x104x128 : Shape := ⟨3, ![1, 104, 128]⟩
abbrev S104x128 : Shape := ⟨2, ![104, 128]⟩
abbrev S104x1 : Shape := ⟨2, ![104, 1]⟩
abbrev S104x16000 : Shape := ⟨2, ![104, 16000]⟩
abbrev S16000 : Shape := ⟨1, ![16000]⟩
abbrev S16000x1 : Shape := ⟨2, ![16000, 1]⟩
abbrev S16000x62 : Shape := ⟨2, ![16000, 62]⟩
abbrev S16000x128 : Shape := ⟨2, ![16000, 128]⟩
abbrev S16000x256 : Shape := ⟨2, ![16000, 256]⟩
abbrev S104x256 : Shape := ⟨2, ![104, 256]⟩
abbrev S100x64 : Shape := ⟨2, ![100, 64]⟩
abbrev S100x1 : Shape := ⟨2, ![100, 1]⟩
abbrev S100 : Shape := ⟨1, ![100]⟩
abbrev S100x1x64 : Shape := ⟨3, ![100, 1, 64]⟩
abbrev S1x100x64 : Shape := ⟨3, ![1, 100, 64]⟩
abbrev S100x100x64 : Shape := ⟨3, ![100, 100, 64]⟩
abbrev S100x100 : Shape := ⟨2, ![100, 100]⟩
abbrev S1x100 : Shape := ⟨2, ![1, 100]⟩

abbrev nBuf : Space → Nat
  | .hbm => 75
  | .vmem => 7
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S_, .i32⟩
  | .hbm, ⟨3, _⟩ => ⟨S_, .i32⟩
  | .hbm, ⟨4, _⟩ => ⟨S2016000, .i32⟩
  | .hbm, ⟨5, _⟩ => ⟨S1x2016000, .i32⟩
  | .hbm, ⟨6, _⟩ => ⟨S2x104x128, .f32⟩
  | .hbm, ⟨7, _⟩ => ⟨S_, .f32⟩
  | .hbm, ⟨8, _⟩ => ⟨S104x128, .f32⟩
  | .hbm, ⟨9, _⟩ => ⟨S100x64, .f32⟩
  | .hbm, ⟨10, _⟩ => ⟨S100x1, .f32⟩
  | .hbm, ⟨11, _⟩ => ⟨S100, .f32⟩
  | .hbm, ⟨12, _⟩ => ⟨S100x1, .f32⟩
  | .hbm, ⟨13, _⟩ => ⟨S100, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S_, .f32⟩
  | .hbm, ⟨18, _⟩ => ⟨S100x64, .f32⟩
  | .hbm, ⟨19, _⟩ => ⟨S100x64, .f32⟩
  | .hbm, ⟨20, _⟩ => ⟨S100x1, .f32⟩
  | .hbm, ⟨21, _⟩ => ⟨S100x64, .f32⟩
  | .hbm, ⟨22, _⟩ => ⟨S100x64, .f32⟩
  | .hbm, ⟨23, _⟩ => ⟨S100x64, .f32⟩
  | .hbm, ⟨24, _⟩ => ⟨S_, .f32⟩
  | .hbm, ⟨25, _⟩ => ⟨S100, .f32⟩
  | .hbm, ⟨26, _⟩ => ⟨S100x64, .f32⟩
  | .hbm, ⟨27, _⟩ => ⟨S_, .f32⟩
  | .hbm, ⟨28, _⟩ => ⟨S100, .f32⟩
  | .hbm, ⟨29, _⟩ => ⟨S_, .f32⟩
  | .hbm, ⟨30, _⟩ => ⟨S100, .f32⟩
  | .hbm, ⟨31, _⟩ => ⟨S100, .f32⟩
  | .hbm, ⟨32, _⟩ => ⟨S100, .f32⟩
  | .hbm, ⟨33, _⟩ => ⟨S100, .f32⟩
  | .hbm, ⟨34, _⟩ => ⟨S100, .f32⟩
  | .hbm, ⟨35, _⟩ => ⟨S_, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S100, .f32⟩
  | .hbm, ⟨40, _⟩ => ⟨S100x1x64, .f32⟩
  | .hbm, ⟨41, _⟩ => ⟨S1x100x64, .f32⟩
  | .hbm, ⟨42, _⟩ => ⟨S100x100x64, .f32⟩
  | .hbm, ⟨43, _⟩ => ⟨S100x100x64, .f32⟩
  | .hbm, ⟨44, _⟩ => ⟨S100x100x64, .f32⟩
  | .hbm, ⟨45, _⟩ => ⟨S100x100x64, .f32⟩
  | .hbm, ⟨46, _⟩ => ⟨S_, .f32⟩
  | .hbm, ⟨47, _⟩ => ⟨S100x100, .f32⟩
  | .hbm, ⟨48, _⟩ => ⟨S100x100, .i32⟩
  | .hbm, ⟨49, _⟩ => ⟨S100x100, .i32⟩
  | .hbm, ⟨50, _⟩ => ⟨S_, .i32⟩
  | .hbm, ⟨51, _⟩ => ⟨S100x100, .i32⟩
  | .hbm, ⟨52, _⟩ => ⟨S100x100, .i32⟩
  | .hbm, ⟨53, _⟩ => ⟨S100x100, .i1⟩
  | .hbm, ⟨54, _⟩ => ⟨S_, .f32⟩
  | .hbm, ⟨55, _⟩ => ⟨S_, .f32⟩
  | .hbm, ⟨56, _⟩ => ⟨S100x100, .f32⟩
  | .hbm, ⟨57, _⟩ => ⟨S100x100, .f32⟩
  | .hbm, ⟨58, _⟩ => ⟨S100x100, .f32⟩
  | .hbm, ⟨59, _⟩ => ⟨S100x1, .f32⟩
  | .hbm, ⟨60, _⟩ => ⟨S1x100, .f32⟩
  | .hbm, ⟨61, _⟩ => ⟨S100x100, .f32⟩
  | .hbm, ⟨62, _⟩ => ⟨S100x100, .f32⟩
  | .hbm, ⟨63, _⟩ => ⟨S100x100, .f32⟩
  | .hbm, ⟨64, _⟩ => ⟨S100x100, .f32⟩
  | .hbm, ⟨65, _⟩ => ⟨S_, .f32⟩
  | .hbm, ⟨66, _⟩ => ⟨S_, .f32⟩
  | .hbm, ⟨67, _⟩ => ⟨S100x100, .f32⟩
  | .hbm, ⟨68, _⟩ => ⟨S100x100, .f32⟩
  | .hbm, ⟨69, _⟩ => ⟨S_, .f32⟩
  | .hbm, ⟨70, _⟩ => ⟨S100, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S16000x64, .f32⟩
  | .local _ .vmem, ⟨1, _⟩ => ⟨S16000x64, .f32⟩
  | .local _ .vmem, ⟨2, _⟩ => ⟨S1x16000, .i32⟩
  | .local _ .vmem, ⟨3, _⟩ => ⟨S1x16000, .i32⟩
  | .local _ .vmem, ⟨4, _⟩ => ⟨S1x104x128, .f32⟩
  | .local _ .vmem, ⟨5, _⟩ => ⟨S1x104x128, .f32⟩
  | .local _ .vmem, ⟨6, _⟩ => ⟨S104x128, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 63], ![false, false]⟩

def k0_cond2 (i : grid0.Coords) : BitVec 1 :=
  let arg1 : BitVec 32 := BitVec.ofNat 32 (i 1).val
  let c62_i32 : BitVec 32 := 62#32
  let v33 : BitVec 1 := Scalar.cmpi .eq arg1 c62_i32
  let v34 : BitVec 32 := Scalar.extui v33
  let c0_i32_11 : BitVec 32 := 0#32
  let v35 : BitVec 1 := Scalar.cmpi .ne v34 c0_i32_11
  v35

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.muli arg0 c63_i32
  let v1 : BitVec 32 := Scalar.addi v0 arg1
  let c124_i32 : BitVec 32 := 124#32
  let v2 : BitVec 32 := Scalar.minsi v1 c124_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.muli arg0 c63_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x104x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S2000000_S2016000_0160000 : S2000000.Pads (![0] : Fin 1 → Nat) ![16000] ![0] S2016000
  h_S_ : 0 < S_.numel
  shapeCasts_S2016000_S1x2016000 : S2016000.ShapeCasts S1x2016000
  inb_S104x128_S104x128_0_0 : ∀ a, (![0, 0] : Fin 2 → Nat) a + S104x128.size a ≤ S104x128.size a
  h_S104x128 : 0 < S104x128.numel
  shapeCasts_S104x128_S104x128 : S104x128.ShapeCasts S104x128
  inb_S16000x64_S16000x64_0_0 : ∀ a, (![0, 0] : Fin 2 → Nat) a + S16000x64.size a ≤ S16000x64.size a
  h_S16000x64 : 0 < S16000x64.numel
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  iota_S104x1_d0_w32 : S104x1.Iotas .tc 32 [0]
  broadcasts_S1x16000_S104x16000 : S1x16000.Broadcasts S104x16000
  broadcasts_S104x1_S104x16000 : S104x1.Broadcasts S104x16000
  natLt_1_32 : 1 < 32
  bitsLt_bf16_f32 : FTy.bits .bf16 < FTy.bits .f32
  reduces_S16000x64_S16000 : S16000x64.Reduces [1] S16000
  shapeCasts_S16000_S16000x1 : S16000.ShapeCasts S16000x1
  concatenates_S16000x64_S16000x1_S16000x1_S16000x62_S16000x128_d1 : Shape.Concatenates [S16000x64, S16000x1, S16000x1, S16000x62] S16000x128 1
  concatenates_S16000x128_S16000x128_S16000x256_d1 : Shape.Concatenates [S16000x128, S16000x128] S16000x256 1
  slices_S104x256_o0_0_S104x128 : S104x256.Slices ![0, 0] S104x128
  slices_S104x256_o0_128_S104x128 : S104x256.Slices ![0, 128] S104x128
  inb_S1x104x128_S1x104x128_0_0_0 : ∀ a, (![0, 0, 0] : Fin 3 → Nat) a + S1x104x128.size a ≤ S1x104x128.size a
  h_S1x104x128 : 0 < S1x104x128.numel
  shapeCasts_S1x104x128_S104x128 : S1x104x128.ShapeCasts S104x128
  shapeCasts_S104x128_S1x104x128 : S104x128.ShapeCasts S1x104x128
  reducesTo_S2x104x128_S104x128_d0 : S2x104x128.ReducesTo [0] S104x128
  slices_S104x128_S100x64_0_0 : S104x128.Slices ![0, 0] S100x64
  slices_S104x128_S100x1_0_64 : S104x128.Slices ![0, 64] S100x1
  shapeCasts_S100x1_S100 : S100x1.ShapeCasts S100
  slices_S104x128_S100x1_0_65 : S104x128.Slices ![0, 65] S100x1
  bcast_S_S100 : S_.BroadcastsInDim S100 (![] : Fin 0 → Fin S100.rank)
  bcast_S_S100x64 : S_.BroadcastsInDim S100x64 (![] : Fin 0 → Fin S100x64.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  reducesTo_S100x64_S100_d1 : S100x64.ReducesTo [1] S100
  bcast_S100x64_S100x1x64_0_2 : S100x64.BroadcastsInDim S100x1x64 (![0, 2] : Fin 2 → Fin S100x1x64.rank)
  bcast_S100x64_S1x100x64_1_2 : S100x64.BroadcastsInDim S1x100x64 (![1, 2] : Fin 2 → Fin S1x100x64.rank)
  bcast_S100x1x64_S100x100x64_0_1_2 : S100x1x64.BroadcastsInDim S100x100x64 (![0, 1, 2] : Fin 3 → Fin S100x100x64.rank)
  bcast_S1x100x64_S100x100x64_0_1_2 : S1x100x64.BroadcastsInDim S100x100x64 (![0, 1, 2] : Fin 3 → Fin S100x100x64.rank)
  reducesTo_S100x100x64_S100x100_d2 : S100x100x64.ReducesTo [2] S100x100
  bcast_S_S100x100 : S_.BroadcastsInDim S100x100 (![] : Fin 0 → Fin S100x100.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  reducesTo_S100x100_S100_d1 : S100x100.ReducesTo [1] S100
  reducesTo_S100_S_d0 : S100.ReducesTo [0] S_
  dot_S104x16000_S16000x256_S104x256_1_0_0_1_n_n_wf : DotDims.WF S104x16000 S16000x256 S104x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S2000000x64.size a
  hwx0_0 : ∀ i : grid0.Coords, EltTy.bits .f32 = 32 ∨ (Rect.block (s := S2000000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2016000.size a
  hwx0_1 : ∀ i : grid0.Coords, EltTy.bits .i32 = 32 ∨ (Rect.block (s := S1x2016000) S1x16000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x104x128.size a ≤ S2x104x128.size a
  hwx0_2 : ∀ i : grid0.Coords, EltTy.bits .f32 = 32 ∨ (Rect.block (s := S2x104x128) S1x104x128.size (cc0_transform_2 i) (hinb0_2 i)).WholeWords (EltTy.packing .f32)

variable [Facts₀]

def dot_S104x16000_S16000x256_S104x256_1_0_0_1_n_n : DotDims S104x16000 S16000x256 S104x256 where
  lhsContracting := [1]
  rhsContracting := [0]
  lhsNonContracting := [0]
  rhsNonContracting := [1]
  lhsBatch := []
  rhsBatch := []
  wf := dot_S104x16000_S16000x256_S104x256_1_0_0_1_n_n_wf

abbrev win0_0 : Pipeline.Window sig grid0 :=
  Pipeline.Window.ofSpec (Memref.whole main_arg0) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x104x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2000000x64 : Shape := ⟨2, ![2000000, 64]⟩
abbrev S2000000 : Shape := ⟨1, ![2000000]⟩
abbrev S_ : Shape := ⟨0, ![]⟩
abbrev S100 : Shape := ⟨1, ![100]⟩
abbrev S2000000x1 : Shape := ⟨2, ![2000000, 1]⟩
abbrev S100x64 : Shape := ⟨2, ![100, 64]⟩
abbrev S100x1 : Shape := ⟨2, ![100, 1]⟩
abbrev S100x1x64 : Shape := ⟨3, ![100, 1, 64]⟩
abbrev S1x100x64 : Shape := ⟨3, ![1, 100, 64]⟩
abbrev S100x100x64 : Shape := ⟨3, ![100, 100, 64]⟩
abbrev S100x100 : Shape := ⟨2, ![100, 100]⟩
abbrev S1x100 : Shape := ⟨2, ![1, 100]⟩

abbrev nBuf : Space → Nat
  | .hbm => 78
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S_, .f32⟩
  | .hbm, ⟨3, _⟩ => ⟨S2000000, .f32⟩
  | .hbm, ⟨4, _⟩ => ⟨S_, .f32⟩
  | .hbm, ⟨5, _⟩ => ⟨S100, .f32⟩
  | .hbm, ⟨6, _⟩ => ⟨S2000000x1, .i32⟩
  | .hbm, ⟨7, _⟩ => ⟨S100, .f32⟩
  | .hbm, ⟨8, _⟩ => ⟨S_, .f32⟩
  | .hbm, ⟨9, _⟩ => ⟨S100, .f32⟩
  | .hbm, ⟨10, _⟩ => ⟨S100, .f32⟩
  | .hbm, ⟨11, _⟩ => ⟨S_, .f32⟩
  | .hbm, ⟨12, _⟩ => ⟨S100x64, .f32⟩
  | .hbm, ⟨13, _⟩ => ⟨S2000000x1, .i32⟩
  | .hbm, ⟨14, _⟩ => ⟨S100x64, .f32⟩
  | .hbm, ⟨15, _⟩ => ⟨S_, .f32⟩
  | .hbm, ⟨16, _⟩ => ⟨S100x64, .f32⟩
  | .hbm, ⟨17, _⟩ => ⟨S100x64, .f32⟩
  | .hbm, ⟨18, _⟩ => ⟨S100x1, .f32⟩
  | .hbm, ⟨19, _⟩ => ⟨S100x64, .f32⟩
  | .hbm, ⟨20, _⟩ => ⟨S100x64, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S2000000x64, .f32⟩
  | .hbm, ⟨31, _⟩ => ⟨S2000000x64, .f32⟩
  | .hbm, ⟨32, _⟩ => ⟨S_, .f32⟩
  | .hbm, ⟨33, _⟩ => ⟨S2000000, .f32⟩
  | .hbm, ⟨34, _⟩ => ⟨S_, .f32⟩
  | .hbm, ⟨35, _⟩ => ⟨S100, .f32⟩
  | .hbm, ⟨36, _⟩ => ⟨S2000000x1, .i32⟩
  | .hbm, ⟨37, _⟩ => ⟨S100, .f32⟩
  | .hbm, ⟨38, _⟩ => ⟨S_, .f32⟩
  | .hbm, ⟨39, _⟩ => ⟨S100, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S100x1x64, .f32⟩
  | .hbm, ⟨44, _⟩ => ⟨S1x100x64, .f32⟩
  | .hbm, ⟨45, _⟩ => ⟨S100x100x64, .f32⟩
  | .hbm, ⟨46, _⟩ => ⟨S100x100x64, .f32⟩
  | .hbm, ⟨47, _⟩ => ⟨S100x100x64, .f32⟩
  | .hbm, ⟨48, _⟩ => ⟨S100x100x64, .f32⟩
  | .hbm, ⟨49, _⟩ => ⟨S_, .f32⟩
  | .hbm, ⟨50, _⟩ => ⟨S100x100, .f32⟩
  | .hbm, ⟨51, _⟩ => ⟨S100x100, .i32⟩
  | .hbm, ⟨52, _⟩ => ⟨S100x100, .i32⟩
  | .hbm, ⟨53, _⟩ => ⟨S_, .i32⟩
  | .hbm, ⟨54, _⟩ => ⟨S100x100, .i32⟩
  | .hbm, ⟨55, _⟩ => ⟨S100x100, .i32⟩
  | .hbm, ⟨56, _⟩ => ⟨S100x100, .i1⟩
  | .hbm, ⟨57, _⟩ => ⟨S_, .f32⟩
  | .hbm, ⟨58, _⟩ => ⟨S_, .f32⟩
  | .hbm, ⟨59, _⟩ => ⟨S100x100, .f32⟩
  | .hbm, ⟨60, _⟩ => ⟨S100x100, .f32⟩
  | .hbm, ⟨61, _⟩ => ⟨S100x100, .f32⟩
  | .hbm, ⟨62, _⟩ => ⟨S100x1, .f32⟩
  | .hbm, ⟨63, _⟩ => ⟨S1x100, .f32⟩
  | .hbm, ⟨64, _⟩ => ⟨S100x100, .f32⟩
  | .hbm, ⟨65, _⟩ => ⟨S100x100, .f32⟩
  | .hbm, ⟨66, _⟩ => ⟨S100x100, .f32⟩
  | .hbm, ⟨67, _⟩ => ⟨S100x100, .f32⟩
  | .hbm, ⟨68, _⟩ => ⟨S_, .f32⟩
  | .hbm, ⟨69, _⟩ => ⟨S_, .f32⟩
  | .hbm, ⟨70, _⟩ => ⟨S100x100, .f32⟩
  | .hbm, ⟨71, _⟩ => ⟨S100x100, .f32⟩
  | .hbm, ⟨72, _⟩ => ⟨S_, .f32⟩
  | .hbm, ⟨73, _⟩ => ⟨S100, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S100 : S_.BroadcastsInDim S100 (![] : Fin 0 → Fin S100.rank)
  bcast_S2000000_S2000000x1_0 : S2000000.BroadcastsInDim S2000000x1 (![0] : Fin 1 → Fin S2000000x1.rank)
  bcast_S_S100x64 : S_.BroadcastsInDim S100x64 (![] : Fin 0 → Fin S100x64.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  reducesTo_S2000000x64_S2000000_d1 : S2000000x64.ReducesTo [1] S2000000
  h_S_ : 0 < S_.numel
  bcast_S100x64_S100x1x64_0_2 : S100x64.BroadcastsInDim S100x1x64 (![0, 2] : Fin 2 → Fin S100x1x64.rank)
  bcast_S100x64_S1x100x64_1_2 : S100x64.BroadcastsInDim S1x100x64 (![1, 2] : Fin 2 → Fin S1x100x64.rank)
  bcast_S100x1x64_S100x100x64_0_1_2 : S100x1x64.BroadcastsInDim S100x100x64 (![0, 1, 2] : Fin 3 → Fin S100x100x64.rank)
  bcast_S1x100x64_S100x100x64_0_1_2 : S1x100x64.BroadcastsInDim S100x100x64 (![0, 1, 2] : Fin 3 → Fin S100x100x64.rank)
  reducesTo_S100x100x64_S100x100_d2 : S100x100x64.ReducesTo [2] S100x100
  bcast_S_S100x100 : S_.BroadcastsInDim S100x100 (![] : Fin 0 → Fin S100x100.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  reducesTo_S100x100_S100_d1 : S100x100.ReducesTo [1] S100
  reducesTo_S100_S_d0 : S100.ReducesTo [0] S_
  scatter_S100_S2000000x1_S2000000_n_0_0_1_wf : ScatterDims.WF S100 S2000000x1 S2000000 [] [0] [0] 1
  scatter_S100x64_S2000000x1_S2000000x64_1_0_0_1_wf : ScatterDims.WF S100x64 S2000000x1 S2000000x64 [1] [0] [0] 1
  gather_S100x64_S2000000x1_S2000000x64_1_0_n_n_0_1_164_wf : GatherDims.WF S100x64 S2000000x1 S2000000x64 [1] [0] [] [0] [] 1 ![1, 64]

variable [Facts₀]

def scatter_S100_S2000000x1_S2000000_n_0_0_1 : ScatterDims S100 S2000000x1 S2000000 where
  updateWindowDims := []
  insertedWindowDims := [0]
  scatterDimsToOperandDims := [0]
  indexVectorDim := 1
  wf := scatter_S100_S2000000x1_S2000000_n_0_0_1_wf
def scatter_S100x64_S2000000x1_S2000000x64_1_0_0_1 : ScatterDims S100x64 S2000000x1 S2000000x64 where
  updateWindowDims := [1]
  insertedWindowDims := [0]
  scatterDimsToOperandDims := [0]
  indexVectorDim := 1
  wf := scatter_S100x64_S2000000x1_S2000000x64_1_0_0_1_wf
def gather_S100x64_S2000000x1_S2000000x64_1_0_n_n_0_1_164 : GatherDims S100x64 S2000000x1 S2000000x64 where
  offsetDims := [1]
  collapsedSliceDims := [0]
  operandBatchingDims := []
  startIndicesBatchingDims := []
  startIndexMap := [0]
  indexVectorDim := 1
  sliceSizes := ![1, 64]
  wf := gather_S100x64_S2000000x1_S2000000x64_1_0_n_n_0_1_164_wf

class Facts : Prop extends Facts₀ where

variable [Facts]
-- ==== Proof.KFrameBase.lean ====
/-
  The kernel program around its one pallas_call: three host stretches before the region (the label
  row padded by one block of the word −1 and laid out as one row of 2016000), the region over a grid of 2 × 63
  points walked in order, five host stretches after it (68 operations: the sum of the two halves' accumulators, the
  centroid and spread tables, the pairwise ratios). Here: the buffer contents the region is entered with, that the later
  stretches allocate nothing and never write an array the region stages, each window's block at a point, the two
  conditions of the body (first point of a half: the accumulator is zeroed; last point of a half: it is copied out)
  decided over the grid, where the output window is idle, and the region invariant with the accumulator owned.
-/
import proofs.«403530_j44985487458968_3_alg».proof.Proof.Gen.Kernel.Launch
import proofs.«403530_j44985487458968_3_alg».proof.Proof.Gen.Kernel.Skeleton
import proofs.«403530_j44985487458968_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three host stretches before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the stretches before the region, the region, and the stretches after it: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    ⟨hostOps0_sub, hostOps0_1_sub, hostOps0_2_sub⟩ ⟨hostOps0_fresh, hostOps0_1_fresh, hostOps0_2_fresh⟩ main_chain

/-- The stretches after the region touch unscoped TensorCore buffers only. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a later stretch writes only its own result buffer, which is none of the three arrays the region
    stages (the points, the padded label row, the two halves' accumulators). -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.TRef.unary, StableHlo.TRef.ternary, StableHlo.nullary_writes, StableHlo.unary_writes, StableHlo.binary_writes, StableHlo.ternary_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.TRef.unary, StableHlo.TRef.ternary, StableHlo.nullary_writes, StableHlo.unary_writes, StableHlo.binary_writes, StableHlo.ternary_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)

theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The points window's staging buffer holds its block at every point, fetched there or not (at the last point the
    block index has not moved), for any proof data whose array is the entry contents and whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the label window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition (the accumulator is zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 63). -/
theorem hcond0_0 : ∀ t : Fin cfg0.N, cond0_0 (grid0.coords t) ↔ t.val % 63 = 0 :=
  (by decide +kernel : ∀ t : Fin grid0.N, cond0_0 (grid0.coords t) ↔ t.val % 63 = 0)

/-- The second condition (the accumulator is copied to the output block): the second grid coordinate is 62. -/
abbrev cond0_1 (i : grid0.Coords) : Prop := k0_cond2 i = 1#1
/-- It holds at the points ≡ 62 (mod 63). -/
theorem hcond0_1 : ∀ t : Fin cfg0.N, cond0_1 (grid0.coords t) ↔ t.val % 63 = 62 :=
  (by decide +kernel : ∀ t : Fin grid0.N, cond0_1 (grid0.coords t) ↔ t.val % 63 = 62)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the copy-out does not happen the output window is idle and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where it happens the window is live. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x104x128 .f32 := (Memref.whole cc0_stg2_0 : Memref sig .tc .vmem S1x104x128 .f32).view
abbrev ms0_0 (t : Fin cfg0.N) : Memref sig .tc .vmem S16000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x104x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S104x128 .f32 := Memref.whole cc0_scratch0
abbrev VS0_0 : View sig .tc .vmem S104x128 .f32 := scM0_0.view

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The body at a FIRST point of a half (second coordinate 0): the accumulator, whatever it held, is overwritten with
  zeros and then with zeros plus this block's contribution; the output buffer is not touched. The run finds the
  pieces the accumulator ends with.
-/
import proofs.«403530_j44985487458968_3_alg».proof.Proof.KFrameBase

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (zeroing taken, copy-out not taken): from the two input buffers at their contents, the output buffer at any
    contents `xi2` (handed back untouched) and the accumulator at anything, the body runs to the continuation holding the
    inputs as they were, the output buffer as it was and the accumulator with its pieces written. -/
noncomputable def kernelRun0_A (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) :
    Σ' (L2 : List (View.Piece (Elt F) S1x104x128 .f32)), { LS0 : List (View.Piece (Elt F) S104x128 .f32) //
      ∀ (xi2 : Vec F S1x104x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨[], ?_, fun xi2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KRunB.lean ====
/-
  The body at a MIDDLE point of a half (second coordinate neither 0 nor 62): the accumulator, at what the point before
  left, is overwritten with itself plus this block's contribution; the output buffer is not touched.
-/
import proofs.«403530_j44985487458968_3_alg».proof.Proof.KFrameBase

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither condition): from the inputs at their contents, the output buffer at any contents (handed back
    untouched) and the accumulator at `xs0`, to the continuation with the accumulator's pieces written. -/
noncomputable def kernelRun0_B (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) :
    Σ' (L2 : List (View.Piece (Elt F) S1x104x128 .f32)), { LS0 : List (View.Piece (Elt F) S104x128 .f32) //
      ∀ (xi2 : Vec F S1x104x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨[], ?_, fun xi2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KRunC.lean ====
/-
  The body at a LAST point of a half (second coordinate 62): the accumulator, at what the point before left, is
  overwritten with itself plus this block's contribution, and that sum is then copied, as one row-block, into the output
  buffer, whatever it held.
-/
import proofs.«403530_j44985487458968_3_alg».proof.Proof.KFrameBase

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (zeroing not taken, copy-out taken): from the inputs at their contents, the output buffer at anything and the
    accumulator at `xs0`, to the continuation with the output buffer's and the accumulator's pieces written. -/
noncomputable def kernelRun0_C (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) :
    Σ' (L2 : List (View.Piece (Elt F) S1x104x128 .f32)), { LS0 : List (View.Piece (Elt F) S104x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrame.lean ====
/-
  The frame of the kernel program. Per case of the body, what the accumulator and the output buffer
  end with (the run's pieces read back; they cover the buffer). Point by point over the 126 grid points, what the
  accumulator holds after each point: at a first point of a half the case-A contents, otherwise the case's contents over
  what the point before left; the output buffer holds the copied accumulator after a last point of a half. With that as
  proof data the body obligation holds at every point, the region runs inside @main, and every execution ends with the
  two argument arrays as launched, the result buffer at what the later host stretches compute from the region's arrays.
-/
import proofs.«403530_j44985487458968_3_alg».proof.Proof.KRunA
import proofs.«403530_j44985487458968_3_alg».proof.Proof.KRunB
import proofs.«403530_j44985487458968_3_alg».proof.Proof.KRunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Cases A and B store nothing into the output buffer: a placeholder nothing consults. -/
def out0_A_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) : Vec F S1x104x128 .f32 :=
  VO0_2.read (Elt F) (VO0_2.writes (Elt F) VO0_2.junk (kernelRun0_A c i arg2 harg2 arg3 harg3 arg4 harg4 arg5 harg5 hc0 hc1 x0 x1).1)

/-- Case A's pieces cover the accumulator. -/
theorem scover0_A_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) (y : S104x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S104x128.size (by sl_kernel_rfl) y

/-- What case A leaves in the accumulator. -/
def sout0_A_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) : Vec F S104x128 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) : Vec F S1x104x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) (y : S104x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S104x128.size (by sl_kernel_rfl) y

def sout0_B_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) : Vec F S104x128 .f32 :=
  VS0_0.read (Elt F) (VS0_0.writes (Elt F) VS0_0.junk (kernelRun0_B c i arg2 harg2 arg3 harg3 arg4 harg4 arg5 harg5 hc0 hc1 x0 x1 xs0).2.1)

/-- Case C's pieces cover the output buffer. -/
theorem cover0_C_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) (y : S1x104x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x104x128.size (by sl_kernel_rfl) y

/-- What case C leaves in the output buffer. -/
def out0_C_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) : Vec F S1x104x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) (y : S104x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S104x128.size (by sl_kernel_rfl) y

def sout0_C_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) : Vec F S104x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The output buffer and the accumulator after the body at position `n`: the case the closed forms select, run on the
    point's blocks, the accumulator it reads at what position `n - 1` left. -/
def outsAt0 (c : Dev nD) : (n : ℕ) → n < cfg0.N → Vec F S1x104x128 .f32 × Vec F S104x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 63 = 0 then
      if h1 : (n + 1) % 63 = 62 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 63 = 62 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 63 = 0) (h1 : ¬t.val % 63 = 62) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 63 = 0) (h1 : ¬t.val % 63 = 62) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 63 = 0) (h1 : t.val % 63 = 62) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each input buffer at its block, the output buffer
    at the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, handed the accumulator at what the point before left (at anything at the very first point) and
    handing it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 126 := lt_of_lt_of_eq t.isLt (show cfg0.N = 126 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 63 = 0
  · by_cases h1 : t.val % 63 = 62
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 63 = 62
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 126 := N_0; omega)

/-! ## The run -/

set_option maxHeartbeats 4000000 in
set_option backward.isDefEq.respectTransparency.types false in
/-- Every weakly fair execution of @main terminates, with every staged array at what the library computes from the proof
    data and every other unscoped buffer as the later host stretches leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-! ## The argument arrays end as launched -/

/-- The host stretches before the region write neither argument array. -/
theorem V_main_arg0 (c : Dev nD) : V m c main_arg0 = m ((c : Thread nD τ).loc main_arg0) := by
  show StableHlo.after (List.flatten [hostOps0, hostOps0_1, hostOps0_2]) (fun b => m (c, b)) (Proc.devRef .tc main_arg0) = _
  rw [StableHlo.after_of_forall_not_mem (b := Proc.devRef .tc main_arg0) _ _ (List.forall_iff_forall_mem.mp (by
      simp only [hostOps0, hostOps0_1, hostOps0_2, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
theorem V_main_arg1 (c : Dev nD) : V m c main_arg1 = m ((c : Thread nD τ).loc main_arg1) := by
  show StableHlo.after (List.flatten [hostOps0, hostOps0_1, hostOps0_2]) (fun b => m (c, b)) (Proc.devRef .tc main_arg1) = _
  rw [StableHlo.after_of_forall_not_mem (b := Proc.devRef .tc main_arg1) _ _ (List.forall_iff_forall_mem.mp (by
      simp only [hostOps0, hostOps0_1, hostOps0_2, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]

/-- No host operation after the region writes the raw label array: it ends as launched. -/
theorem W_main_arg1 (c : Dev nD) :
    Pipeline.afterTail₀ cfgs (dats m) 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The run with its post read at the result buffer and the two argument arrays. -/
theorem run_result : θ_run defs (onTc (τ := τ) (main (F := F))) ⟨m, fun _ => 0, ρ⟩ (fun r => ∀ c : Dev nD,
      r.2.mem ((c.tc : Thread nD τ).loc main_v52) = Pipeline.afterTail₀ cfgs (dats m) 0 (V0 m) [hostOps1, hostOps1_1, hostOps1_2, hostOps1_3, hostOps1_4] c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v52 (Pipeline.mem_restRefs_of main_v52 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m c)⟩) (run_main m ρ)

/-- THE FRAME: every execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Fr

end
-- ==== Proof.KIFrameBase.lean ====
/-
  The idealized kernel program around its one pallas_call: three host stretches before the region (the label
  row padded by one block of the word −1 and laid out as one row of 2016000), the region over a grid of 2 × 63
  points walked in order, five host stretches after it (68 operations: the sum of the two halves' accumulators, the
  centroid and spread tables, the pairwise ratios). Here: the buffer contents the region is entered with, that the later
  stretches allocate nothing and never write an array the region stages, each window's block at a point, the two
  conditions of the body (first point of a half: the accumulator is zeroed; last point of a half: it is copied out)
  decided over the grid, where the output window is idle, and the region invariant with the accumulator owned.
-/
import proofs.«403530_j44985487458968_3_alg».proof.Proof.Gen.KernelIdeal.Launch
import proofs.«403530_j44985487458968_3_alg».proof.Proof.Gen.KernelIdeal.Skeleton
import proofs.«403530_j44985487458968_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three host stretches before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the stretches before the region, the region, and the stretches after it: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    ⟨hostOps0_sub, hostOps0_1_sub, hostOps0_2_sub⟩ ⟨hostOps0_fresh, hostOps0_1_fresh, hostOps0_2_fresh⟩ main_chain

/-- The stretches after the region touch unscoped TensorCore buffers only. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a later stretch writes only its own result buffer, which is none of the three arrays the region
    stages (the points, the padded label row, the two halves' accumulators). -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.TRef.unary, StableHlo.TRef.ternary, StableHlo.nullary_writes, StableHlo.unary_writes, StableHlo.binary_writes, StableHlo.ternary_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.TRef.unary, StableHlo.TRef.ternary, StableHlo.nullary_writes, StableHlo.unary_writes, StableHlo.binary_writes, StableHlo.ternary_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)

theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The points window's staging buffer holds its block at every point, fetched there or not (at the last point the
    block index has not moved), for any proof data whose array is the entry contents and whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the label window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition (the accumulator is zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 63). -/
theorem hcond0_0 : ∀ t : Fin cfg0.N, cond0_0 (grid0.coords t) ↔ t.val % 63 = 0 :=
  (by decide +kernel : ∀ t : Fin grid0.N, cond0_0 (grid0.coords t) ↔ t.val % 63 = 0)

/-- The second condition (the accumulator is copied to the output block): the second grid coordinate is 62. -/
abbrev cond0_1 (i : grid0.Coords) : Prop := k0_cond2 i = 1#1
/-- It holds at the points ≡ 62 (mod 63). -/
theorem hcond0_1 : ∀ t : Fin cfg0.N, cond0_1 (grid0.coords t) ↔ t.val % 63 = 62 :=
  (by decide +kernel : ∀ t : Fin grid0.N, cond0_1 (grid0.coords t) ↔ t.val % 63 = 62)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the copy-out does not happen the output window is idle and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where it happens the window is live. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x104x128 .f32 := (Memref.whole cc0_stg2_0 : Memref sig .tc .vmem S1x104x128 .f32).view
abbrev ms0_0 (t : Fin cfg0.N) : Memref sig .tc .vmem S16000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x104x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S104x128 .f32 := Memref.whole cc0_scratch0
abbrev VS0_0 : View sig .tc .vmem S104x128 .f32 := scM0_0.view

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The body at a FIRST point of a half (second coordinate 0): the accumulator, whatever it held, is overwritten with
  zeros and then with zeros plus this block's contribution; the output buffer is not touched. The run finds the
  pieces the accumulator ends with.
-/
import proofs.«403530_j44985487458968_3_alg».proof.Proof.KIFrameBase

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (zeroing taken, copy-out not taken): from the two input buffers at their contents, the output buffer at any
    contents `xi2` (handed back untouched) and the accumulator at anything, the body runs to the continuation holding the
    inputs as they were, the output buffer as it was and the accumulator with its pieces written. -/
noncomputable def kernelRun0_A (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) :
    Σ' (L2 : List (View.Piece (Elt F) S1x104x128 .f32)), { LS0 : List (View.Piece (Elt F) S104x128 .f32) //
      ∀ (xi2 : Vec F S1x104x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨[], ?_, fun xi2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunB.lean ====
/-
  The body at a MIDDLE point of a half (second coordinate neither 0 nor 62): the accumulator, at what the point before
  left, is overwritten with itself plus this block's contribution; the output buffer is not touched.
-/
import proofs.«403530_j44985487458968_3_alg».proof.Proof.KIFrameBase

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither condition): from the inputs at their contents, the output buffer at any contents (handed back
    untouched) and the accumulator at `xs0`, to the continuation with the accumulator's pieces written. -/
noncomputable def kernelRun0_B (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) :
    Σ' (L2 : List (View.Piece (Elt F) S1x104x128 .f32)), { LS0 : List (View.Piece (Elt F) S104x128 .f32) //
      ∀ (xi2 : Vec F S1x104x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨[], ?_, fun xi2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunC.lean ====
/-
  The body at a LAST point of a half (second coordinate 62): the accumulator, at what the point before left, is
  overwritten with itself plus this block's contribution, and that sum is then copied, as one row-block, into the output
  buffer, whatever it held.
-/
import proofs.«403530_j44985487458968_3_alg».proof.Proof.KIFrameBase

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (zeroing not taken, copy-out taken): from the inputs at their contents, the output buffer at anything and the
    accumulator at `xs0`, to the continuation with the output buffer's and the accumulator's pieces written. -/
noncomputable def kernelRun0_C (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) :
    Σ' (L2 : List (View.Piece (Elt F) S1x104x128 .f32)), { LS0 : List (View.Piece (Elt F) S104x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__fused_kernel i arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KIFrame.lean ====
/-
  The frame of the idealized kernel program. Per case of the body, what the accumulator and the output buffer
  end with (the run's pieces read back; they cover the buffer). Point by point over the 126 grid points, what the
  accumulator holds after each point: at a first point of a half the case-A contents, otherwise the case's contents over
  what the point before left; the output buffer holds the copied accumulator after a last point of a half. With that as
  proof data the body obligation holds at every point, the region runs inside @main, and every execution ends with the
  two argument arrays as launched, the result buffer at what the later host stretches compute from the region's arrays.
-/
import proofs.«403530_j44985487458968_3_alg».proof.Proof.KIRunA
import proofs.«403530_j44985487458968_3_alg».proof.Proof.KIRunB
import proofs.«403530_j44985487458968_3_alg».proof.Proof.KIRunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Cases A and B store nothing into the output buffer: a placeholder nothing consults. -/
def out0_A_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) : Vec F S1x104x128 .f32 :=
  VO0_2.read (Elt F) (VO0_2.writes (Elt F) VO0_2.junk (kernelRun0_A c i arg2 harg2 arg3 harg3 arg4 harg4 arg5 harg5 hc0 hc1 x0 x1).1)

/-- Case A's pieces cover the accumulator. -/
theorem scover0_A_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) (y : S104x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S104x128.size (by sl_kernel_rfl) y

/-- What case A leaves in the accumulator. -/
def sout0_A_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) : Vec F S104x128 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) : Vec F S1x104x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) (y : S104x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S104x128.size (by sl_kernel_rfl) y

def sout0_B_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) : Vec F S104x128 .f32 :=
  VS0_0.read (Elt F) (VS0_0.writes (Elt F) VS0_0.junk (kernelRun0_B c i arg2 harg2 arg3 harg3 arg4 harg4 arg5 harg5 hc0 hc1 x0 x1 xs0).2.1)

/-- Case C's pieces cover the output buffer. -/
theorem cover0_C_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) (y : S1x104x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x104x128.size (by sl_kernel_rfl) y

/-- What case C leaves in the output buffer. -/
def out0_C_2 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) : Vec F S1x104x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) (y : S104x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S104x128.size (by sl_kernel_rfl) y

def sout0_C_0 (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) : Vec F S104x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The output buffer and the accumulator after the body at position `n`: the case the closed forms select, run on the
    point's blocks, the accumulator it reads at what position `n - 1` left. -/
def outsAt0 (c : Dev nD) : (n : ℕ) → n < cfg0.N → Vec F S1x104x128 .f32 × Vec F S104x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 63 = 0 then
      if h1 : (n + 1) % 63 = 62 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 63 = 62 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 63 = 0) (h1 : ¬t.val % 63 = 62) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 63 = 0) (h1 : ¬t.val % 63 = 62) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 63 = 0) (h1 : t.val % 63 = 62) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each input buffer at its block, the output buffer
    at the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, handed the accumulator at what the point before left (at anything at the very first point) and
    handing it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 126 := lt_of_lt_of_eq t.isLt (show cfg0.N = 126 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 63 = 0
  · by_cases h1 : t.val % 63 = 62
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 63 = 62
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 126 := N_0; omega)

/-! ## The run -/

set_option maxHeartbeats 4000000 in
set_option backward.isDefEq.respectTransparency.types false in
/-- Every weakly fair execution of @main terminates, with every staged array at what the library computes from the proof
    data and every other unscoped buffer as the later host stretches leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-! ## The argument arrays end as launched -/

/-- The host stretches before the region write neither argument array. -/
theorem V_main_arg0 (c : Dev nD) : V m c main_arg0 = m ((c : Thread nD τ).loc main_arg0) := by
  show StableHlo.after (List.flatten [hostOps0, hostOps0_1, hostOps0_2]) (fun b => m (c, b)) (Proc.devRef .tc main_arg0) = _
  rw [StableHlo.after_of_forall_not_mem (b := Proc.devRef .tc main_arg0) _ _ (List.forall_iff_forall_mem.mp (by
      simp only [hostOps0, hostOps0_1, hostOps0_2, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
theorem V_main_arg1 (c : Dev nD) : V m c main_arg1 = m ((c : Thread nD τ).loc main_arg1) := by
  show StableHlo.after (List.flatten [hostOps0, hostOps0_1, hostOps0_2]) (fun b => m (c, b)) (Proc.devRef .tc main_arg1) = _
  rw [StableHlo.after_of_forall_not_mem (b := Proc.devRef .tc main_arg1) _ _ (List.forall_iff_forall_mem.mp (by
      simp only [hostOps0, hostOps0_1, hostOps0_2, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]

/-- No host operation after the region writes the raw label array: it ends as launched. -/
theorem W_main_arg1 (c : Dev nD) :
    Pipeline.afterTail₀ cfgs (dats m) 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The run with its post read at the result buffer and the two argument arrays. -/
theorem run_result : θ_run defs (onTc (τ := τ) (main (F := F))) ⟨m, fun _ => 0, ρ⟩ (fun r => ∀ c : Dev nD,
      r.2.mem ((c.tc : Thread nD τ).loc main_v52) = Pipeline.afterTail₀ cfgs (dats m) 0 (V0 m) [hostOps1, hostOps1_1, hostOps1_2, hostOps1_3, hostOps1_4] c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v52 (Pipeline.mem_restRefs_of main_v52 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m c)⟩) (run_main m ρ)

/-- THE FRAME: every execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Fr

end
-- ==== Proof.Spec.lean ====
/-
  The Davies–Bouldin statistics of a labelled point set, over the extended reals: for each label word the points
  carrying it, their count, coordinate sums and sum of squared norms; the offset centroid
  (0.001 + sum) / (1 + count); and the offset mean squared deviation from it, in two forms — summed point by point,
  and recovered from the three sums by expanding the square. Also what one block of 16000 labelled rows adds to the
  per-label accumulator of augmented rows (the 64 coordinates, the squared norm, a one, zeros).
-/
import Idealize.ShloMosaic.PureOps.Ideal
import Idealize.ShloMosaic.Lib.ValueIdx

noncomputable section

namespace Cert.DB

open Idealize.ShloMosaic Idealize.ShloMosaic.ValueIdx

abbrev SN64 : Shape := ⟨2, ![2000000, 64]⟩
abbrev SN : Shape := ⟨1, ![2000000]⟩
abbrev SK64 : Shape := ⟨2, ![100, 64]⟩
abbrev SK : Shape := ⟨1, ![100]⟩

/-- The literals both programs share, as extended reals: 0.001, 1, 2 (their f32 words). -/
def c001 : EReal := Ideal.ofBits .f32 0x3A83126F#32
def c1 : EReal := Ideal.ofBits .f32 0x3F800000#32
def c2 : EReal := Ideal.ofBits .f32 0x40000000#32

/-- A row of 64 coordinates augmented to 128 lanes: the coordinates, then the squared norm, then a one, then zeros. -/
def augRow (row : Fin 64 → EReal) (j : Fin 128) : EReal :=
  if h : j.val < 64 then row ⟨j.val, h⟩
  else if j.val = 64 then ∑ d : Fin 64, row d * row d
  else if j.val = 65 then 1 else 0

/-- What one block of 16000 labelled rows adds to accumulator entry `(k, j)`: the augmented rows labelled `k`. -/
def blockTerm (xb : Fin 16000 → Fin 64 → EReal) (lb : Fin 16000 → BitVec 32) (k : Fin 104) (j : Fin 128) : EReal :=
  ∑ r : Fin 16000, if lb r = BitVec.ofNat 32 k.val then augRow (xb r) j else 0

variable (x : SN64.Idx → EReal) (cl : SN.Idx → BitVec 32)

/-- The points labelled with the word of `k`. -/
def members (k : ℕ) : Finset (Fin 2000000) := Finset.univ.filter fun n => cl (ix1 n) = BitVec.ofNat 32 k

/-- Column `j` of the augmented rows summed over the points labelled `k`. -/
def segSum (k : ℕ) (j : Fin 128) : EReal := ∑ n ∈ members cl k, augRow (fun d => x (ix2 n d)) j

def cnt (k : ℕ) : EReal := ∑ _n ∈ members cl k, (1 : EReal)
def sumx (k : ℕ) (d : Fin 64) : EReal := ∑ n ∈ members cl k, x (ix2 n d)
def sumsq (k : ℕ) : EReal := ∑ n ∈ members cl k, ∑ d : Fin 64, x (ix2 n d) * x (ix2 n d)

/-- The offset centroid of label `k`. -/
def centroid (k : ℕ) (d : Fin 64) : EReal := Ideal.div (c001 + sumx x cl k d) (c1 + cnt cl k)

/-- The squared deviations from the centroid, summed point by point. -/
def dev (k : ℕ) : EReal :=
  ∑ n ∈ members cl k, ∑ d : Fin 64, (x (ix2 n d) - centroid x cl k d) * (x (ix2 n d) - centroid x cl k d)

/-- The same recovered from the three sums: Σ‖x‖² − 2·(A · Σx) + count·‖A‖². -/
def devK (k : ℕ) : EReal :=
  (sumsq x cl k - c2 * ∑ d : Fin 64, centroid x cl k d * sumx x cl k d)
    + cnt cl k * ∑ d : Fin 64, centroid x cl k d * centroid x cl k d

/-- The centroid table and the spread table, as arrays. -/
def AI : SK64.Idx → EReal := fun i => centroid x cl (i 0).val (i 1)
def SI : SK.Idx → EReal := fun i => Ideal.sqrt (Ideal.div (c001 + dev x cl (i 0).val) (c1 + cnt cl (i 0).val))

end Cert.DB

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Payload.lean ====
/-
  The three values the kernel body stores, read at an index over the extended reals.
  The first grid step stores the zero accumulator, and the last stores the accumulator under a leading unit axis. Every
  step stores the accumulator plus what its block of 16000 labelled rows adds: a one-hot matrix (the 104 label words
  against the block's label words) times the block's rows augmented to 128 lanes (the 64 coordinates, their sum of
  squares, a one, zeros). The kernel multiplies the one-hot matrix with a 256-lane operand, the augmented block beside
  its difference with itself, and adds the two 128-lane halves of the product. The difference is zero in every entry
  because every entry of the augmented block is finite (a finite sum of products of finite reals is finite), so the
  upper half adds nothing; and a one-hot entry times a lane is the lane where the labels agree and zero elsewhere, for
  every extended real.
-/
import proofs.«403530_j44985487458968_3_alg».proof.Proof.Gen.KernelIdeal.Skeleton
import proofs.«403530_j44985487458968_3_alg».proof.Proof.Spec
import proofs.«403530_j44985487458968_3_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.DB.Payload

open Idealize.ShloMosaic Idealize.ShloMosaic.ValueIdx Idealize.ShloMosaic.Keepdims
open Cert.KernelIdeal Cert.KernelIdeal.Gen

/-- The one-hot matrix of a block: entry `(k, r)` compares the label word of row `r` with the word of `k`. -/
def oneHot (v4 : Vec Ideal S1x16000 .i32) : FVec Ideal S104x16000 .bf16 :=
  have v5 : IVec S1x16000 32 := shapeCast S1x16000 v4 shapeCasts_S1x16000_S1x16000
  have v6 : IVec S104x1 32 := iota .tc S104x1 32 [0] iota_S104x1_d0_w32
  have v7 : IVec S104x16000 32 := broadcastTo S104x16000 v5 broadcasts_S1x16000_S104x16000
  have v8 : IVec S104x16000 32 := broadcastTo S104x16000 v6 broadcasts_S104x1_S104x16000
  have v9 : IVec S104x16000 1 := cmpi .eq v7 v8
  have v10 : IVec S104x16000 32 := extui 32 v9 natLt_1_32
  have v11 : FVec Ideal S104x16000 .f32 := sitofp .f32 v10
  truncf .bf16 v11 bitsLt_bf16_f32

/-- The augmented block: each row's 64 coordinates, its squared norm, a one, and 62 zeros. -/
def augBlock (v3 : Vec Ideal S16000x64 .f32) : FVec Ideal S16000x128 .f32 :=
  have v13 : FVec Ideal S16000x64 .f32 := mulf v3 v3
  have v14 : FVec Ideal S16000 .f32 := multiReduction .add [1] S16000 v13 0x00000000#32 reduces_S16000x64_S16000 (.inl rfl) rfl
  have v15 : FVec Ideal S16000x1 .f32 := shapeCast S16000x1 v14 shapeCasts_S16000_S16000x1
  have cst_4 : Ideal .f32 := Scalar.ofBits .f32 0x3F800000#32
  have v16 : FVec Ideal S16000x1 .f32 := broadcast S16000x1 cst_4
  have cst_5 : Ideal .f32 := Scalar.ofBits .f32 0x00000000#32
  have v17 : FVec Ideal S16000x62 .f32 := broadcast S16000x62 cst_5
  concatenate S16000x128 1 [⟨S16000x64, v3⟩, ⟨S16000x1, v15⟩, ⟨S16000x1, v16⟩, ⟨S16000x62, v17⟩] concatenates_S16000x64_S16000x1_S16000x1_S16000x62_S16000x128_d1

/-- The matmul's right operand: the augmented block beside its difference with itself, 256 lanes. -/
def wideBlock (v3 : Vec Ideal S16000x64 .f32) : FVec Ideal S16000x256 .bf16 :=
  have v18 : FVec Ideal S16000x128 .f32 := augBlock v3
  have v19 : FVec Ideal S16000x128 .bf16 := truncf .bf16 v18 bitsLt_bf16_f32
  have v21 : FVec Ideal S16000x128 .f32 := subf v18 v18
  have v22 : FVec Ideal S16000x128 .bf16 := truncf .bf16 v21 bitsLt_bf16_f32
  concatenate S16000x256 1 [⟨S16000x128, v19⟩, ⟨S16000x128, v22⟩] concatenates_S16000x128_S16000x128_S16000x256_d1

/-- The product of the one-hot matrix with the 256-lane block, from the zero accumulator. -/
def product (v3 : Vec Ideal S16000x64 .f32) (v4 : Vec Ideal S1x16000 .i32) : FVec Ideal S104x256 .f32 :=
  matmul dot_S104x16000_S16000x256_S104x256_1_0_0_1_n_n none (oneHot v4) (wideBlock v3) (constant (F := Ideal) S104x256 .f32 0x00000000#32)

/-- The stored value is the accumulator plus the sum of the product's two 128-lane halves. -/
theorem pay2_eq (v3 : Vec Ideal S16000x64 .f32) (v4 : Vec Ideal S1x16000 .i32) (v25 : Vec Ideal S104x128 .f32) :
    k0_pay2 (F := Ideal) v3 v4 v25 = shapeCast S104x128 (addf v25 (addf
      (extractStridedSlice S104x128 ![0, 0] (product v3 v4) slices_S104x256_o0_0_S104x128)
      (extractStridedSlice S104x128 ![0, 128] (product v3 v4) slices_S104x256_o0_128_S104x128))) shapeCasts_S104x128_S104x128 := rfl

/-! ## Finite extended reals -/

/-- A finite extended real less itself is zero. -/
theorem sub_self_of_finite (a : EReal) (h : a ≠ ⊤ ∧ a ≠ ⊥) : a - a = 0 := by
  lift a to ℝ using h
  rw [← EReal.coe_sub, sub_self, EReal.coe_zero]

/-- A product of two finite extended reals is finite. -/
theorem finite_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- A sum of two finite extended reals is finite. -/
theorem finite_add {a b : EReal} (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩

theorem finite_zero : (0 : EReal) ≠ ⊤ ∧ (0 : EReal) ≠ ⊥ := ⟨EReal.coe_ne_top 0, EReal.coe_ne_bot 0⟩

theorem finite_one : (1 : EReal) ≠ ⊤ ∧ (1 : EReal) ≠ ⊥ := ⟨EReal.coe_ne_top 1, EReal.coe_ne_bot 1⟩

/-- A finite sum of finite extended reals is finite. -/
theorem finite_sum {ι : Type} (s : Finset ι) (f : ι → EReal) (h : ∀ i ∈ s, f i ≠ ⊤ ∧ f i ≠ ⊥) :
    (∑ i ∈ s, f i) ≠ ⊤ ∧ (∑ i ∈ s, f i) ≠ ⊥ :=
  Finset.sum_induction f (fun a => a ≠ ⊤ ∧ a ≠ ⊥) (fun _ _ => finite_add) finite_zero h

/-- An augmented row of finite coordinates is finite in every lane. -/
theorem augRow_finite (row : Fin 64 → EReal) (h : ∀ d, row d ≠ ⊤ ∧ row d ≠ ⊥) (j : Fin 128) :
    augRow row j ≠ ⊤ ∧ augRow row j ≠ ⊥ := by
  unfold augRow
  split
  · exact h _
  · split
    · exact finite_sum _ _ fun d _ => finite_mul (h d) (h d)
    · split
      · exact finite_one
      · exact finite_zero

/-! ## The one-hot entry -/

/-- Two words compared for equality, the bit widened to a word and read as a signed integer: one where they agree,
    zero where they differ. -/
theorem eqWord_cast (a b : BitVec 32) :
    (((((IntOp.cmpi .eq a b).setWidth 32).toInt : ℤ) : ℝ) : EReal) = if a = b then 1 else 0 := by
  have hc : IntOp.cmpi .eq a b = if a = b then 1#1 else 0#1 := by
    unfold IntOp.cmpi
    by_cases h : a = b
    · subst h; simp
    · have hb : (a == b) = false := beq_eq_false_iff_ne.mpr h
      simp [h, hb]
  rw [hc]
  split
  · have e : ((1#1 : BitVec 1).setWidth 32).toInt = 1 := by decide
    rw [e]; simp
  · have e : ((0#1 : BitVec 1).setWidth 32).toInt = 0 := by decide
    rw [e]; simp

/-- Entry `(k, r)` of the one-hot matrix: one if row `r`'s label word is the word of `k`, else zero. -/
theorem oneHot_apply (v4 : Vec Ideal S1x16000 .i32) (k : Fin 104) (r : Fin 16000) :
    oneHot v4 (ix2 k r) = if v4 (ix2 (0 : Fin 1) r) = BitVec.ofNat 32 k.val then 1 else 0 := by
  have e7 : broadcastTo S104x16000 (shapeCast S1x16000 v4 shapeCasts_S1x16000_S1x16000 : IVec S1x16000 32)
      broadcasts_S1x16000_S104x16000 (ix2 k r) = v4 (ix2 (0 : Fin 1) r) := by
    rw [broadcastTo_1b_ab_apply, shapeCast_self]
  have e8 : broadcastTo S104x16000 (iota .tc S104x1 32 [0] iota_S104x1_d0_w32 : IVec S104x1 32)
      broadcasts_S104x1_S104x16000 (ix2 k r) = BitVec.ofNat 32 k.val := by
    rw [broadcastTo_a1_ab_apply, iota_single_apply]
  unfold oneHot
  show (((((IntOp.cmpi .eq
      (broadcastTo S104x16000 (shapeCast S1x16000 v4 shapeCasts_S1x16000_S1x16000 : IVec S1x16000 32)
        broadcasts_S1x16000_S104x16000 (ix2 k r))
      (broadcastTo S104x16000 (iota .tc S104x1 32 [0] iota_S104x1_d0_w32 : IVec S104x1 32)
        broadcasts_S104x1_S104x16000 (ix2 k r))).setWidth 32).toInt : ℤ) : ℝ) : EReal) = _
  rw [e7, e8]
  exact eqWord_cast _ _

/-! ## The augmented block at an index -/

/-- Row `r` of the augmented block is the augmented row of the block's row `r`: the lane falls in one of the four
    pieces laid side by side (64 coordinates, the squared norm, the one, 62 zeros). -/
theorem augBlock_apply (v3 : Vec Ideal S16000x64 .f32) (r : Fin 16000) (j : Fin 128) :
    augBlock v3 (ix2 r j) = augRow (fun d => v3 (ix2 r d)) j := by
  unfold augBlock augRow
  by_cases h0 : j.val < 64
  · rw [dif_pos h0]
    refine concatenate_apply_piece (1 : Fin S16000x128.rank) _ _ (ix2 r j) 0 (by show (0 : ℕ) < 4; decide) S16000x64 v3 rfl rfl 0 rfl
      (ix2 r ⟨j.val, h0⟩) (fun b hb => ?_) ?_
    · match b with
      | ⟨0, _⟩ => rfl
      | ⟨1, _⟩ => exact absurd rfl hb
    · exact Nat.zero_add _
  · rw [dif_neg h0]
    by_cases h1 : j.val = 64
    · rw [if_pos h1]
      refine (concatenate_apply_piece (1 : Fin S16000x128.rank) _ _ (ix2 r j) 1 (by show (1 : ℕ) < 4; decide) S16000x1 _ rfl rfl 64 rfl
        (ix2 r (0 : Fin 1)) (fun b hb => ?_) ?_).trans ?_
      · match b with
        | ⟨0, _⟩ => rfl
        | ⟨1, _⟩ => exact absurd rfl hb
      · show 64 + 0 = j.val
        omega
      · rw [shapeCast_a_a1_apply]
        exact laneSum_apply (mulf v3 v3) _ _ _ _ r
    · rw [if_neg h1]
      by_cases h2 : j.val = 65
      · rw [if_pos h2]
        refine (concatenate_apply_piece (1 : Fin S16000x128.rank) _ _ (ix2 r j) 2 (by show (2 : ℕ) < 4; decide) S16000x1 _ rfl rfl 65 rfl
          (ix2 r (0 : Fin 1)) (fun b hb => ?_) ?_).trans ?_
        · match b with
          | ⟨0, _⟩ => rfl
          | ⟨1, _⟩ => exact absurd rfl hb
        · show 65 + 0 = j.val
          omega
        · exact Ideal.ofBits_one_f32
      · rw [if_neg h2]
        have hj := j.isLt
        refine (concatenate_apply_piece (1 : Fin S16000x128.rank) _ _ (ix2 r j) 3 (by show (3 : ℕ) < 4; decide) S16000x62 _ rfl rfl 66 rfl
          (ix2 r (⟨j.val - 66, by omega⟩ : Fin 62)) (fun b hb => ?_) ?_).trans ?_
        · match b with
          | ⟨0, _⟩ => rfl
          | ⟨1, _⟩ => exact absurd rfl hb
        · show 66 + (j.val - 66) = j.val
          omega
        · exact Ideal.ofBits_zero_f32

/-! ## The 256-lane block at an index -/

/-- A lane below 128 of the 256-lane block is that lane of the augmented block. -/
theorem wideBlock_lo (v3 : Vec Ideal S16000x64 .f32) (r : Fin 16000) (j : Fin 128) (c : Fin 256) (hc : c.val = 0 + j.val) :
    wideBlock v3 (ix2 r c) = augBlock v3 (ix2 r j) := by
  unfold wideBlock
  refine concatenate_apply_piece (1 : Fin S16000x256.rank) _ _ (ix2 r c) 0 (by show (0 : ℕ) < 2; decide) S16000x128 _ rfl rfl 0 rfl
    (ix2 r j) (fun b hb => ?_) ?_
  · match b with
    | ⟨0, _⟩ => rfl
    | ⟨1, _⟩ => exact absurd rfl hb
  · exact hc.symm

/-- A lane from 128 on is the augmented block's entry less itself: zero, the entry being finite. -/
theorem wideBlock_hi (v3 : Vec Ideal S16000x64 .f32) (hfin : ∀ i, v3 i ≠ ⊤ ∧ v3 i ≠ ⊥) (r : Fin 16000) (j : Fin 128)
    (c : Fin 256) (hc : c.val = 128 + j.val) : wideBlock v3 (ix2 r c) = 0 := by
  unfold wideBlock
  refine (concatenate_apply_piece (1 : Fin S16000x256.rank) _ _ (ix2 r c) 1 (by show (1 : ℕ) < 2; decide) S16000x128 _ rfl rfl 128 rfl
    (ix2 r j) (fun b hb => ?_) ?_).trans ?_
  · match b with
    | ⟨0, _⟩ => rfl
    | ⟨1, _⟩ => exact absurd rfl hb
  · exact hc.symm
  · show augBlock v3 (ix2 r j) - augBlock v3 (ix2 r j) = 0
    rw [augBlock_apply]
    exact sub_self_of_finite _ (augRow_finite _ (fun d => hfin _) j)

/-! ## The product at an index -/

/-- The four coordinates of the matmul's operand indices: the left operand is read at (the result's row, the
    contraction position), the right operand at (the contraction position, the result's column). -/
theorem lhs_axis0 (i : S104x256.Idx) (q : dot_S104x16000_S16000x256_S104x256_1_0_0_1_n_n.contr.Idx) :
    (dot_S104x16000_S16000x256_S104x256_1_0_0_1_n_n.lhsIdx i q 0).val = (i 0).val := by
  unfold DotDims.lhsIdx
  rw [dif_neg (show ¬(0 : Fin S104x16000.rank) ∈ dot_S104x16000_S16000x256_S104x256_1_0_0_1_n_n.lhsBatch by decide),
    dif_pos (show (0 : Fin S104x16000.rank) ∈ dot_S104x16000_S16000x256_S104x256_1_0_0_1_n_n.lhsNonContracting by decide)]
  rfl

theorem lhs_axis1 (i : S104x256.Idx) (q : dot_S104x16000_S16000x256_S104x256_1_0_0_1_n_n.contr.Idx) :
    (dot_S104x16000_S16000x256_S104x256_1_0_0_1_n_n.lhsIdx i q 1).val = (q ⟨0, by decide⟩).val :=
  dot_S104x16000_S16000x256_S104x256_1_0_0_1_n_n.lhsIdx_val_of_single rfl i q

theorem rhs_axis0 (i : S104x256.Idx) (q : dot_S104x16000_S16000x256_S104x256_1_0_0_1_n_n.contr.Idx) :
    (dot_S104x16000_S16000x256_S104x256_1_0_0_1_n_n.rhsIdx i q 0).val = (q ⟨0, by decide⟩).val :=
  dot_S104x16000_S16000x256_S104x256_1_0_0_1_n_n.rhsIdx_val_of_single rfl i q

theorem rhs_axis1 (i : S104x256.Idx) (q : dot_S104x16000_S16000x256_S104x256_1_0_0_1_n_n.contr.Idx) :
    (dot_S104x16000_S16000x256_S104x256_1_0_0_1_n_n.rhsIdx i q 1).val = (i 1).val := by
  unfold DotDims.rhsIdx
  rw [dif_neg (show ¬(1 : Fin S16000x256.rank) ∈ dot_S104x16000_S16000x256_S104x256_1_0_0_1_n_n.rhsBatch by decide),
    dif_pos (show (1 : Fin S16000x256.rank) ∈ dot_S104x16000_S16000x256_S104x256_1_0_0_1_n_n.rhsNonContracting by decide)]
  rfl

/-- Entry `(k, c)` of the product: the sum over the block's rows of the one-hot entry times the row's lane `c`. -/
theorem product_apply (v3 : Vec Ideal S16000x64 .f32) (v4 : Vec Ideal S1x16000 .i32) (k : Fin 104) (c : Fin 256) :
    product v3 v4 (ix2 k c) = ∑ r : Fin 16000, oneHot v4 (ix2 k r) * wideBlock v3 (ix2 r c) := by
  unfold product
  refine (Ideal.matmul_constant_zero_apply dot_S104x16000_S16000x256_S104x256_1_0_0_1_n_n none (oneHot v4) (wideBlock v3)
    (ix2 k c)).trans ?_
  rw [← Equiv.sum_comp (contrEquiv1 dot_S104x16000_S16000x256_S104x256_1_0_0_1_n_n 16000 rfl rfl).symm]
  refine Finset.sum_congr rfl fun q _ => ?_
  have hq := contrEquiv1_symm_val dot_S104x16000_S16000x256_S104x256_1_0_0_1_n_n 16000 rfl rfl q
  have el : dot_S104x16000_S16000x256_S104x256_1_0_0_1_n_n.lhsIdx (ix2 k c)
      ((contrEquiv1 dot_S104x16000_S16000x256_S104x256_1_0_0_1_n_n 16000 rfl rfl).symm q) = ix2 k q :=
    funext fun a => Fin.ext (by
      match a with
      | ⟨0, _⟩ => exact lhs_axis0 _ _
      | ⟨1, _⟩ => exact (lhs_axis1 _ _).trans hq)
  have er : dot_S104x16000_S16000x256_S104x256_1_0_0_1_n_n.rhsIdx (ix2 k c)
      ((contrEquiv1 dot_S104x16000_S16000x256_S104x256_1_0_0_1_n_n 16000 rfl rfl).symm q) = ix2 q c :=
    funext fun a => Fin.ext (by
      match a with
      | ⟨0, _⟩ => exact (rhs_axis0 _ _).trans hq
      | ⟨1, _⟩ => exact rhs_axis1 _ _)
  rw [el, er]

/-! ## The three stored values at an index -/

/-- The first grid step's store: the zero accumulator. -/
theorem pay1_apply (i : S104x128.Idx) : (k0_pay1 (F := Ideal)) i = 0 := by
  unfold k0_pay1
  rw [shapeCast_self]
  exact Ideal.ofBits_zero_f32

/-- Every step's store: the accumulator plus what the block adds, the augmented rows carrying each label. The product's
    upper half is a sum of zeros, and a one-hot entry times a lane keeps the lane or gives zero. -/
theorem pay2_apply (v3 : Vec Ideal S16000x64 .f32) (v4 : Vec Ideal S1x16000 .i32) (v25 : Vec Ideal S104x128 .f32)
    (hfin : ∀ i, v3 i ≠ ⊤ ∧ v3 i ≠ ⊥) (k : Fin 104) (j : Fin 128) :
    k0_pay2 (F := Ideal) v3 v4 v25 (ix2 k j) = v25 (ix2 k j) + Cert.DB.blockTerm (fun r d => v3 (ix2 r d)) (fun r => v4 (ix2 (0 : Fin 1) r)) k j := by
  have hj := j.isLt
  rw [pay2_eq, shapeCast_self]
  show v25 (ix2 k j) + (extractStridedSlice S104x128 ![0, 0] (product v3 v4) slices_S104x256_o0_0_S104x128 (ix2 k j)
    + extractStridedSlice S104x128 ![0, 128] (product v3 v4) slices_S104x256_o0_128_S104x128 (ix2 k j)) = _
  rw [slice2_axis1_apply 0 (product v3 v4) slices_S104x256_o0_0_S104x128 k j (⟨j.val, by omega⟩ : Fin 256) (Nat.zero_add _).symm,
    slice2_axis1_apply 128 (product v3 v4) slices_S104x256_o0_128_S104x128 k j (⟨128 + j.val, by omega⟩ : Fin 256) rfl,
    product_apply, product_apply, ← Finset.sum_add_distrib]
  unfold Cert.DB.blockTerm
  congr 1
  refine Finset.sum_congr rfl fun r _ => ?_
  rw [oneHot_apply, wideBlock_lo v3 r j _ (Nat.zero_add _).symm, wideBlock_hi v3 hfin r j _ rfl, augBlock_apply, mul_zero, add_zero]
  split
  · exact one_mul _
  · exact zero_mul _

/-- The last step's store: the accumulator under a leading unit axis. -/
theorem pay3_apply (v36 : Vec Ideal S104x128 .f32) (k : Fin 104) (j : Fin 128) :
    k0_pay3 (F := Ideal) v36 (ix3 (0 : Fin 1) k j) = v36 (ix2 k j) := by
  unfold k0_pay3
  exact shapeCast_ab_1ab_apply v36 _ 0 k j

end Cert.DB.Payload

end
-- ==== Proof.KIValue.lean ====
/-
  What the idealized kernel's region leaves in its result array, over the extended reals. Each case of the body leaves
  in the accumulator the accumulate step applied to the point's two blocks and to what the accumulator held (zeros at a
  first point of a half); at a last point the output block receives that accumulator as one row-block. So after point
  63·p + i the accumulator entry (k, j) is the sum over the points 63·p … 63·p + i of the augmented rows of the point's
  block labelled k, and the result array's entry (p, k, j) is that sum over the whole half p.
-/
import proofs.«403530_j44985487458968_3_alg».proof.Proof.KIFrame
import proofs.«403530_j44985487458968_3_alg».proof.Proof.Payload
import Idealize.ShloMosaic.Lib.Pipeline.Value
import Idealize.ShloMosaic.Lib.ValueIdx

set_option maxRecDepth 16384

noncomputable section

namespace Cert.KernelIdeal.Val

open Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)

/-! ## What each case leaves, as the payloads of the point's blocks -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first point of a half the accumulator ends with the accumulate step over zeros. -/
theorem acc_A (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : cond0_0 i) (hc1 : ¬cond0_1 i)
    (x0 : Vec F S16000x64 .f32) (x1 : Vec F S1x16000 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S104x128) hz2, View.readCov_unit_zero (S := S104x128) _ hz2]
  simp only [View.readAt_eq_ld, harg2.read_unread, harg3.read_unread, View.ld_unit_zero (S := S16000x64) hz2, View.ld_unit_zero (S := S1x16000) hz2]

/-- At a middle point it ends with the accumulate step over what the point before left. -/
theorem acc_B (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : ¬cond0_1 i)
    (x0 : Vec F S16000x64 .f32) (x1 : Vec F S1x16000 .i32) (xs0 : Vec F S104x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S104x128) hz2]
  simp only [View.readAt_eq_ld, harg2.read_unread, harg3.read_unread, harg5.read_unread, View.ld_unit_zero (S := S16000x64) hz2, View.ld_unit_zero (S := S1x16000) hz2, View.ld_unit_zero (S := S104x128) hz2]

/-- At a last point likewise, -/
theorem acc_C (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S104x128) hz2]
  simp only [View.readAt_eq_ld, harg2.read_unread, harg3.read_unread, harg5.read_unread, View.ld_unit_zero (S := S16000x64) hz2, View.ld_unit_zero (S := S1x16000) hz2, View.ld_unit_zero (S := S104x128) hz2]

/-- and the output block receives that accumulator, laid out as one row-block. -/
theorem out_C (c : Dev nD) (i : grid0.Coords) (arg2 : Memref sig .tc .vmem S16000x64 .f32) (harg2 : arg2.IsWhole) (arg3 : Memref sig .tc .vmem S1x16000 .i32) (harg3 : arg3.IsWhole) (arg4 : Memref sig .tc .vmem S1x104x128 .f32) (harg4 : arg4.IsWhole) (arg5 : Memref sig .tc .vmem S104x128 .f32) (harg5 : arg5.IsWhole) (hc0 : ¬cond0_0 i) (hc1 : cond0_1 i)
    (x0 : Vec F S16000x64 .f32) (x1 : Vec F S1x16000 .i32) (xs0 : Vec F S104x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x104x128) hz3, View.readCov_unit_zero (S := S104x128) _ hz2]
  simp only [View.readAt_eq_ld, harg2.read_unread, harg3.read_unread, harg5.read_unread, View.ld_unit_zero (S := S16000x64) hz2, View.ld_unit_zero (S := S1x16000) hz2, View.ld_unit_zero (S := S104x128) hz2]

end Pieces

/-! ## The accumulator point by point -/

section Steps

variable (m : (ℓ : Loc nD τ sig) → Buf (Elt Ideal) ℓ)

/-- A point's two blocks at their literal types. -/
abbrev xblk (c : Dev nD) (t : Fin cfg0.N) : Vec Ideal S16000x64 .f32 := iblk m c 0 t
abbrev lblk (c : Dev nD) (t : Fin cfg0.N) : Vec Ideal S1x16000 .i32 := iblk m c 1 t

/-- What point `t` adds to accumulator entry `(k, j)`: the augmented rows of its block that carry label `k`. -/
def term (c : Dev nD) (t : Fin cfg0.N) (k : Fin 104) (j : Fin 128) : EReal :=
  Cert.DB.blockTerm (fun r d => xblk m c t (ix2 r d)) (fun r => lblk m c t (ix2 (0 : Fin 1) r)) k j

/-- The accumulator after point `t`. -/
abbrev accAfter (c : Dev nD) (t : Fin cfg0.N) : Vec Ideal S104x128 .f32 := (outsAt0 m c t.val t.isLt).2

/-- At a first point of a half the accumulator is that point's term alone: the zeros it was reset to add nothing. -/
theorem step_first (c : Dev nD) (t : Fin cfg0.N) (h0 : t.val % 63 = 0)
    (hf : ∀ i, xblk m c t i ≠ ⊤ ∧ xblk m c t i ≠ ⊥) (k : Fin 104) (j : Fin 128) :
    accAfter m c t (ix2 k j) = term m c t k j := by
  have h1 : ¬t.val % 63 = 62 := by omega
  show (outsAt0 m c t.val t.isLt).2 (ix2 k j) = _
  rw [outsAt0_A m c t h0 h1]
  dsimp only
  refine (congrFun (acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (lblk m c t)) (ix2 k j)).trans ?_
  refine (Cert.DB.Payload.pay2_apply (xblk m c t) (lblk m c t) (k0_pay1 (F := Ideal)) hf k j).trans ?_
  rw [Cert.DB.Payload.pay1_apply, zero_add]
  rfl

/-- At any other point it is what the point before left plus that point's term. -/
theorem step_next (c : Dev nD) (t : Fin cfg0.N) (h0 : ¬t.val % 63 = 0)
    (hf : ∀ i, xblk m c t i ≠ ⊤ ∧ xblk m c t i ≠ ⊥) (k : Fin 104) (j : Fin 128) :
    accAfter m c t (ix2 k j)
      = (outsAt0 m c (t.val - 1) (Nat.lt_of_le_of_lt (Nat.sub_le _ _) t.isLt)).2 (ix2 k j) + term m c t k j := by
  show (outsAt0 m c t.val t.isLt).2 (ix2 k j) = _
  by_cases h1 : t.val % 63 = 62
  · rw [outsAt0_C m c t h0 h1]
    dsimp only
    refine (congrFun (acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (lblk m c t) (outsAt0 m c (t.val - 1) (Nat.lt_of_le_of_lt (Nat.sub_le _ _) t.isLt)).2) (ix2 k j)).trans ?_
    exact Cert.DB.Payload.pay2_apply (xblk m c t) (lblk m c t) _ hf k j
  · rw [outsAt0_B m c t h0 h1]
    dsimp only
    refine (congrFun (acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (lblk m c t) (outsAt0 m c (t.val - 1) (Nat.lt_of_le_of_lt (Nat.sub_le _ _) t.isLt)).2) (ix2 k j)).trans ?_
    exact Cert.DB.Payload.pay2_apply (xblk m c t) (lblk m c t) _ hf k j

/-- At a last point of a half the output block holds the accumulator, one row-block. -/
theorem out_last (c : Dev nD) (t : Fin cfg0.N) (h1 : t.val % 63 = 62) (k : Fin 104) (j : Fin 128) :
    (outsAt0 m c t.val t.isLt).1 (ix3 (0 : Fin 1) k j) = accAfter m c t (ix2 k j) := by
  have h0 : ¬t.val % 63 = 0 := by omega
  show _ = (outsAt0 m c t.val t.isLt).2 (ix2 k j)
  rw [outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (lblk m c t) (outsAt0 m c (t.val - 1) (Nat.lt_of_le_of_lt (Nat.sub_le _ _) t.isLt)).2) (ix3 (0 : Fin 1) k j)).trans ?_
  refine (Cert.DB.Payload.pay3_apply _ k j).trans ?_
  exact (congrFun (acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (lblk m c t) (outsAt0 m c (t.val - 1) (Nat.lt_of_le_of_lt (Nat.sub_le _ _) t.isLt)).2) (ix2 k j)).symm

end Steps

/-! ## The accumulator as a sum over the half's points, and the result array -/

section Final

variable (m : (ℓ : Loc nD τ sig) → Buf (Elt Ideal) ℓ)

/-- A point's term, for every natural number (zero past the grid). -/
def termN (c : Dev nD) (n : ℕ) (k : Fin 104) (j : Fin 128) : EReal :=
  if h : n < cfg0.N then term m c ⟨n, h⟩ k j else 0

theorem termN_of_lt (c : Dev nD) (n : ℕ) (h : n < cfg0.N) (k : Fin 104) (j : Fin 128) :
    termN m c n k j = term m c ⟨n, h⟩ k j := dif_pos h

/-- After point `n` the accumulator is the sum of the terms of the points of `n`'s half up to `n`: by induction on the
    point, a first point of a half restarting the sum. -/
theorem acc_sum (hf : ∀ (c : Dev nD) (t : Fin cfg0.N) i, xblk m c t i ≠ ⊤ ∧ xblk m c t i ≠ ⊥) (c : Dev nD) :
    ∀ (n : ℕ) (hn : n < cfg0.N) (k : Fin 104) (j : Fin 128),
      (outsAt0 m c n hn).2 (ix2 k j) = ∑ s ∈ Finset.range (n % 63 + 1), termN m c (63 * (n / 63) + s) k j
  | 0, hn, k, j => by
    refine (step_first m c ⟨0, hn⟩ rfl (hf c _) k j).trans ?_
    rw [show (0 : ℕ) % 63 + 1 = 1 from rfl, Finset.sum_range_one, show 63 * (0 / 63) + 0 = 0 from rfl, termN_of_lt m c 0 hn]
  | n + 1, hn, k, j => by
    by_cases h0 : (n + 1) % 63 = 0
    · refine (step_first m c ⟨n + 1, hn⟩ h0 (hf c _) k j).trans ?_
      have e : 63 * ((n + 1) / 63) + 0 = n + 1 := by omega
      rw [h0, show (0 : ℕ) + 1 = 1 from rfl, Finset.sum_range_one, e, termN_of_lt m c (n + 1) hn]
    · refine (step_next m c ⟨n + 1, hn⟩ h0 (hf c _) k j).trans ?_
      have ih := acc_sum hf c n (Nat.lt_of_succ_lt hn) k j
      have hd : (n + 1) / 63 = n / 63 := by omega
      have hm : (n + 1) % 63 = n % 63 + 1 := by omega
      have e : 63 * (n / 63) + (n % 63 + 1) = n + 1 := by omega
      rw [hd, hm, Finset.sum_range_succ _ (n % 63 + 1), e, termN_of_lt m c (n + 1) hn]
      exact congrArg (· + term m c ⟨n + 1, hn⟩ k j) ih

/-- Entry `(p, k, j)` of the result array: the terms of half `p`'s 63 points. -/
def half (c : Dev nD) (p : Fin 2) (k : Fin 104) (j : Fin 128) : EReal :=
  ∑ s ∈ Finset.range 63, termN m c (63 * p.val + s) k j

/-- The result array. -/
def outArr (c : Dev nD) : Vec Ideal S2x104x128 .f32 := fun i => half m c (i 0) (i 1) (i 2)

/-- The output window's block index over the grid: `(t / 63, 0, 0)`. -/
theorem idx2_facts : ∀ t : Fin cfg0.N, win0_2.index t (0 : Fin 3) = t.val / 63
    ∧ win0_2.index t (1 : Fin 3) = 0 ∧ win0_2.index t (2 : Fin 3) = 0 :=
  (by decide +kernel : ∀ t : Fin grid0.N, _)

/-- An entry of the output block at point `t` sits at `(t / 63, k, j)` of the result array. -/
theorem emb2 (t : Fin cfg0.N) (k : Fin 104) (j : Fin 128) :
    ((cfg0.win 2).blk t).view.emb (ix3 (0 : Fin 1) k j)
      = (ix3 (⟨t.val / 63, by have hN : t.val < 126 := lt_of_lt_of_eq t.isLt (show cfg0.N = 126 from N_0); omega⟩ : Fin 2) k j : S2x104x128.Idx) := by
  obtain ⟨e0, e1, e2⟩ := idx2_facts t
  funext a; apply Fin.ext
  match a with
  | ⟨0, _⟩ => show win0_2.index t (0 : Fin 3) * 1 + 1 * (0 : Fin 1).val = t.val / 63; omega
  | ⟨1, _⟩ => show win0_2.index t (1 : Fin 3) * 104 + 1 * k.val = k.val; omega
  | ⟨2, _⟩ => show win0_2.index t (2 : Fin 3) * 128 + 1 * j.val = j.val; omega

/-- What a last point of a half writes back is its block of the result array. -/
theorem flushed_eq (hf : ∀ (c : Dev nD) (t : Fin cfg0.N) i, xblk m c t i ≠ ⊤ ∧ xblk m c t i ≠ ⊥) (c : Dev nD)
    (t : Fin cfg0.N) (hfl : (cfg0.win 2).flush t = true) :
    (dats m 0 c).flushed 2 t = ((cfg0.win 2).blk t).view.read (Elt Ideal) (outArr m c) := by
  have h62 : t.val % 63 = 62 := (flush0_2 t).mp hfl
  show (cfg0.win 2).cut (grid0.coords t) ((dats m 0 c).after 2 t) = _
  rw [after0_2]
  funext y
  obtain ⟨k, j, rfl⟩ : ∃ (k : Fin 104) (j : Fin 128), y = ix3 (0 : Fin 1) k j :=
    ⟨y 1, y 2, by
      funext a
      match a with
      | ⟨0, _⟩ => exact Fin.ext (by have h : (y 0).val < 1 := (y 0).isLt; show (y 0).val = 0; omega)
      | ⟨1, _⟩ => rfl
      | ⟨2, _⟩ => rfl⟩
  show (outsAt0 m c t.val t.isLt).1 (ix3 (0 : Fin 1) k j) = outArr m c (((cfg0.win 2).blk t).view.emb (ix3 (0 : Fin 1) k j))
  rw [emb2 t k j, out_last m c t h62 k j]
  refine (acc_sum m hf c t.val t.isLt k j).trans ?_
  rw [h62]
  rfl

theorem mem_blk2 (t : Fin cfg0.N) (i : S2x104x128.Idx) :
    i ∈ ((cfg0.win 2).blk t).view.set ↔ ∀ a : Fin 3, win0_2.index t a * S1x104x128.size a ≤ (i a).val ∧ (i a).val < win0_2.index t a * S1x104x128.size a + S1x104x128.size a := by
  show i ∈ ((View.whole main_v2).slice (win0_2.rect t)).set ↔ _
  rw [View.set_slice_whole, Rect.mem_set_unit]
  exact Iff.rfl

/-- THE RESULT ARRAY after the region: the two halves' sums (the last point of each half covers its row-block). -/
theorem final_out (hf : ∀ (c : Dev nD) (t : Fin cfg0.N) i, xblk m c t i ≠ ⊤ ∧ xblk m c t i ≠ ⊥) (c : Dev nD) :
    (dats m 0 c).arrAt 2 cfg0.N = outArr m c :=
  (dats m 0 c).arrAt_eq_of_cover 2 (outArr m c) (flushed_eq m hf c) fun i => by
    have h0 : (i 0).val < 2 := (i 0).isLt
    have h1 : (i 1).val < 104 := (i 1).isLt
    have h2 : (i 2).val < 128 := (i 2).isLt
    have hlt : 63 * (i 0).val + 62 < cfg0.N := lt_of_lt_of_eq (by omega : 63 * (i 0).val + 62 < 126) (N_0.symm : 126 = cfg0.N)
    refine ⟨⟨63 * (i 0).val + 62, hlt⟩, (flush0_2 _).mpr (by show (63 * (i 0).val + 62) % 63 = 62; omega), ?_⟩
    rw [mem_blk2]
    obtain ⟨e0, e1, e2⟩ := idx2_facts ⟨63 * (i 0).val + 62, hlt⟩
    have e0' : win0_2.index ⟨63 * (i 0).val + 62, hlt⟩ (0 : Fin 3) = (i 0).val := by rw [e0]; show (63 * (i 0).val + 62) / 63 = (i 0).val; omega
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 104 ≤ (i 1).val ∧ (i 1).val < win0_2.index _ (1 : Fin 3) * 104 + 104; omega
    | ⟨2, _⟩ => show win0_2.index _ (2 : Fin 3) * 128 ≤ (i 2).val ∧ (i 2).val < win0_2.index _ (2 : Fin 3) * 128 + 128; omega

end Final

end Cert.KernelIdeal.Val

end
-- ==== Proof.KIBlocks.lean ====
/-
  Where the two staged input blocks sit in their arrays. The grid of 2 × 63 points is walked in order, so point t has
  coordinates (t / 63, t % 63) and flat number 63 · (t / 63) + t % 63 = t. The points window stages blocks of 16000 rows
  at block index (min t 124, 0); the label window stages blocks of 16000 entries of the one-row padded label array at
  block index (0, t). An element of a block sits, on each axis, at block index × block size + its own coordinate.
-/
import proofs.«403530_j44985487458968_3_alg».proof.Proof.KIFrameBase
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The two index maps over the grid: at point `t` the points window is at block `(min t 124, 0)` and the label window at
    block `(0, t)`. -/
theorem idx_facts : ∀ t : Fin cfg0.N, win0_0.index t (0 : Fin 2) = min t.val 124
    ∧ win0_0.index t (1 : Fin 2) = 0
    ∧ win0_1.index t (0 : Fin 2) = 0
    ∧ win0_1.index t (1 : Fin 2) = t.val :=
  (by decide +kernel : ∀ t : Fin grid0.N, _)

/-- Row `r` of the points block at point `t` is row `min t 124 · 16000 + r` of the points array. -/
theorem xblk_apply (c : Dev nD) (t : Fin cfg0.N) (r : Fin 16000) (d : Fin 64) :
    (iblk m c 0 t : Vec Ideal S16000x64 .f32) (ix2 r d)
      = (V m c main_arg0 : Vec Ideal S2000000x64 .f32)
          (ix2 ⟨min t.val 124 * 16000 + r.val, by have := r.isLt; omega⟩ d) := by
  obtain ⟨e0, e1, -, -⟩ := idx_facts t
  show V m c main_arg0 (((cfg0.win 0).blk t).view.emb (ix2 r d)) = V m c main_arg0 _
  refine congrArg _ ?_
  funext a; apply Fin.ext
  match a with
  | ⟨0, _⟩ => show win0_0.index t (0 : Fin 2) * 16000 + 1 * r.val = min t.val 124 * 16000 + r.val; omega
  | ⟨1, _⟩ => show win0_0.index t (1 : Fin 2) * 64 + 1 * d.val = d.val; omega

/-- Entry `r` of the label block at point `t` is entry `t · 16000 + r` of the padded label row. -/
theorem lblk_apply (c : Dev nD) (t : Fin cfg0.N) (r : Fin 16000) :
    (iblk m c 1 t : Vec Ideal S1x16000 .i32) (ix2 (0 : Fin 1) r)
      = (V m c main_v1 : Vec Ideal S1x2016000 .i32)
          (ix2 (0 : Fin 1) ⟨t.val * 16000 + r.val, by
            have := r.isLt; have hN : t.val < 126 := lt_of_lt_of_eq t.isLt (show cfg0.N = 126 from N_0); omega⟩) := by
  obtain ⟨-, -, e0, e1⟩ := idx_facts t
  show V m c main_v1 (((cfg0.win 1).blk t).view.emb (ix2 (0 : Fin 1) r)) = V m c main_v1 _
  refine congrArg _ ?_
  funext a; apply Fin.ext
  match a with
  | ⟨0, _⟩ => show win0_1.index t (0 : Fin 2) * 1 + 1 * (0 : Fin 1).val = (0 : Fin 1).val; omega
  | ⟨1, _⟩ => show win0_1.index t (1 : Fin 2) * 16000 + 1 * r.val = t.val * 16000 + r.val; omega

end Cert.KernelIdeal.Blk

end
-- ==== Proof.KerHost.lean ====
/-
  The two stretches of plain array operations around the kernel of the Davies–Bouldin program, read at the
  extended reals.

  Before the kernel: the 2000000 label words are padded at the high end with 16000 words of all ones (the integer −1)
  and laid out as one row of 2016000; the data array is left as it was.

  After the kernel: its result holds two partial accumulator tables of 104 rows by 128 lanes. They are added entry
  by entry (`comb`). From the sum's first 100 rows the program reads the coordinate sums (lanes 0 … 63), the sum of
  squared norms (lane 64) and the count (lane 65), forms the offset centroid (0.001 + Σx) / (1 + n) (`AIK`) and the
  offset spread, the square root of (0.001 + (Σ‖x‖² − 2·(A · Σx) + n·‖A‖²)) / (1 + n) (`SIK`), and feeds both to the
  pairwise part of the index (`tail`), which is carried as one function of the two tables and is not looked into.
-/
import proofs.«403530_j44985487458968_3_alg».proof.Proof.Gen.KernelIdeal.Launch
import proofs.«403530_j44985487458968_3_alg».proof.Proof.Spec
import Idealize.ShloMosaic.Lib.StableHlo.Run
import Idealize.ShloMosaic.Lib.KernelVsHost
import Idealize.ShloMosaic.Lib.IdealHost
import Idealize.ShloMosaic.Lib.ValueLayout

noncomputable section

namespace Cert.DB.KerHost

open Idealize.ShloMosaic Idealize.ShloMosaic.ValueIdx
open Cert.KernelIdeal Cert.KernelIdeal.Gen

/-! ## Before the kernel -/

/-- The data array is written by none of the operations before the kernel. -/
theorem data_kept (W : Valuation τ sig (Elt Ideal)) :
    StableHlo.after (List.flatten [hostOps0, hostOps0_1, hostOps0_2]) W (Proc.devRef .tc main_arg0)
      = W (Proc.devRef .tc main_arg0) := by
  simp only [hostOps0, hostOps0_1, hostOps0_2, List.flatten_cons, List.flatten_nil, List.append_nil, List.cons_append,
    List.nil_append]
  after_results

/-- The label row the kernel reads, as the composition of the operations that make it: the constant, the pad, the
    change of shape. -/
theorem labels_term (W : Valuation τ sig (Elt Ideal)) :
    StableHlo.after (List.flatten [hostOps0, hostOps0_1, hostOps0_2]) W (Proc.devRef .tc main_v1)
      = shapeCast S1x2016000 (pad S2016000 ![0] ![16000] ![0] (W (Proc.devRef .tc main_arg1) : IVec S2000000 32)
          (constantI S_ 32 4294967295#32) pads_S2000000_S2016000_0160000 h_S_) shapeCasts_S2016000_S1x2016000 := by
  simp only [hostOps0, hostOps0_1, hostOps0_2, List.flatten_cons, List.flatten_nil, List.append_nil, List.cons_append,
    List.nil_append]
  after_results
  simp only [StableHlo.TRef.ofBuf, StableHlo.TRef.toBuf, cast_eq, id_eq]
  rfl

/-- A vector of 2000000 words padded by 16000 at the high end and laid out as one row: at column `b` it is the
    vector's word `b` below 2000000 and the padding word from there on. -/
theorem pad_row_apply (x : IVec S2000000 32) (v : IVec S_ 32) (a : Fin 1) (b : Fin 2016000) :
    shapeCast S1x2016000 (pad S2016000 ![0] ![16000] ![0] x v pads_S2000000_S2016000_0160000 h_S_)
        shapeCasts_S2016000_S1x2016000 (ix2 a b)
      = if h : b.val < 2000000 then x (ix1 ⟨b.val, h⟩) else v ix0 := by
  refine (shapeCast_apply _ shapeCasts_S2016000_S1x2016000 (ix2 a b) (ix1 b) ?_).trans ?_
  · rw [Shape.rowMajor_val_two, Shape.rowMajor_val_one]
    show b.val = a.val * 2016000 + b.val
    have := a.isLt; omega
  · by_cases h : b.val < 2000000
    · rw [dif_pos h]
      refine pad_apply_of_inside _ _ _ x v pads_S2000000_S2016000_0160000 h_S_ (ix1 b) (ix1 ⟨b.val, h⟩) fun ax => ?_
      match ax with
      | ⟨0, _⟩ => show b.val = 0 + b.val * (0 + 1); omega
    · rw [dif_neg h]
      refine (pad_apply_of_not_inside _ _ _ x v pads_S2000000_S2016000_0160000 h_S_ (ix1 b) (0 : Fin 1) ?_).trans ?_
      · show ¬(0 ≤ b.val ∧ (b.val - 0) % (0 + 1) = 0 ∧ (b.val - 0) / (0 + 1) < 2000000)
        omega
      · exact congrArg v (eq_ix0 _)

/-- The label row the kernel reads: the labels, then 16000 words of all ones. -/
theorem labels_padded (W : Valuation τ sig (Elt Ideal)) :
    StableHlo.after (List.flatten [hostOps0, hostOps0_1, hostOps0_2]) W (Proc.devRef .tc main_v1)
      = fun i : S1x2016000.Idx =>
          if h : (i 1).val < 2000000 then (W (Proc.devRef .tc main_arg1)) (ix1 ⟨(i 1).val, h⟩) else 0xFFFFFFFF#32 := by
  rw [labels_term]
  funext i
  obtain ⟨a, b, rfl⟩ : ∃ (a : Fin 1) (b : Fin 2016000), i = ix2 a b := ⟨i 0, i 1, eq_ix2 i⟩
  exact pad_row_apply _ _ a b

/-! ## After the kernel -/

/-- The two partial accumulators added entry by entry: the host's sum over the leading axis of extent two. -/
def comb (out : FVec Ideal S2x104x128 .f32) (k : Fin 104) (j : Fin 128) : EReal :=
  out (ix3 (0 : Fin 2) k j) + out (ix3 (1 : Fin 2) k j)

/-- The accumulator table: the sum of the two partial tables over the leading axis, from zero. -/
def acc (out : FVec Ideal S2x104x128 .f32) : FVec Ideal S104x128 .f32 :=
  Host.reduceAdd (F := Ideal) out (constant (F := Ideal) S_ .f32 0x00000000#32) reducesTo_S2x104x128_S104x128_d0 h_S_

/-- Its first 100 rows and 64 columns: the coordinate sums. -/
def sums (out : FVec Ideal S2x104x128 .f32) : FVec Ideal S100x64 .f32 :=
  extractStridedSlice S100x64 ![0, 0] (acc out) slices_S104x128_S100x64_0_0

/-- Column 64 of the first 100 rows, as a vector: the sums of squared norms. -/
def sqs (out : FVec Ideal S2x104x128 .f32) : FVec Ideal S100 .f32 :=
  shapeCast S100 (extractStridedSlice S100x1 ![0, 64] (acc out) slices_S104x128_S100x1_0_64) shapeCasts_S100x1_S100

/-- Column 65 of the first 100 rows, as a vector: the counts. -/
def cnts (out : FVec Ideal S2x104x128 .f32) : FVec Ideal S100 .f32 :=
  shapeCast S100 (extractStridedSlice S100x1 ![0, 65] (acc out) slices_S104x128_S100x1_0_65) shapeCasts_S100x1_S100

/-- One plus the counts. -/
def den (out : FVec Ideal S2x104x128 .f32) : FVec Ideal S100 .f32 :=
  addf (broadcastInDim S100 ![] bcast_S_S100 (constant (F := Ideal) S_ .f32 0x3F800000#32)) (cnts out)

/-- The centroid table as the host operations spell it. -/
def Aterm (out : FVec Ideal S2x104x128 .f32) : FVec Ideal S100x64 .f32 :=
  Host.divf (F := Ideal)
    (addf (broadcastInDim S100x64 ![] bcast_S_S100x64 (constant (F := Ideal) S_ .f32 0x3A83126F#32)) (sums out))
    (broadcastInDim S100x64 ![0, 1] bcast_S100x1_S100x64_0_1 (broadcastInDim S100x1 ![0] bcast_S100_S100x1_0 (den out)))

/-- The spread table as the host operations spell it. -/
def Sterm (out : FVec Ideal S2x104x128 .f32) : FVec Ideal S100 .f32 :=
  Host.sqrt (F := Ideal) (Host.divf (F := Ideal)
    (addf (broadcastInDim S100 ![] bcast_S_S100 (constant (F := Ideal) S_ .f32 0x3A83126F#32))
      (addf
        (subf (sqs out)
          (mulf (broadcastInDim S100 ![] bcast_S_S100 (constant (F := Ideal) S_ .f32 0x40000000#32))
            (Host.reduceAdd (F := Ideal) (mulf (Aterm out) (sums out)) (constant (F := Ideal) S_ .f32 0x00000000#32)
              reducesTo_S100x64_S100_d1 h_S_)))
        (mulf (cnts out)
          (Host.reduceAdd (F := Ideal) (mulf (Aterm out) (Aterm out)) (constant (F := Ideal) S_ .f32 0x00000000#32)
            reducesTo_S100x64_S100_d1 h_S_))))
    (den out))

/-- Everything the program does with the centroid table and the spread table: the pairwise centroid distances, the
    pairwise ratios with the diagonal masked, each row's largest ratio, and their mean over the 100 labels. -/
def tail (A : FVec Ideal S100x64 .f32) (S : FVec Ideal S100 .f32) : FVec Ideal S_ .f32 :=
  let v29 : FVec Ideal S100x1x64 .f32 := broadcastInDim S100x1x64 ![0, 2] bcast_S100x64_S100x1x64_0_2 A
  let v30 : FVec Ideal S1x100x64 .f32 := broadcastInDim S1x100x64 ![1, 2] bcast_S100x64_S1x100x64_1_2 A
  let v31 : FVec Ideal S100x100x64 .f32 := broadcastInDim S100x100x64 ![0, 1, 2] bcast_S100x1x64_S100x100x64_0_1_2 v29
  let v32 : FVec Ideal S100x100x64 .f32 := broadcastInDim S100x100x64 ![0, 1, 2] bcast_S1x100x64_S100x100x64_0_1_2 v30
  let v33 : FVec Ideal S100x100x64 .f32 := subf v31 v32
  let v34 : FVec Ideal S100x100x64 .f32 := mulf v33 v33
  let v35 : FVec Ideal S100x100 .f32 :=
    Host.reduceAdd (F := Ideal) v34 (constant (F := Ideal) S_ .f32 0x00000000#32) reducesTo_S100x100x64_S100x100_d2 h_S_
  let v36 : IVec S100x100 32 := iotaInDim S100x100 32 0
  let v37 : IVec S100x100 32 := iotaInDim S100x100 32 1
  let v38 : IVec S100x100 32 := broadcastInDim S100x100 ![] bcast_S_S100x100 (constantI S_ 32 0#32)
  let v39 : IVec S100x100 32 := addi v36 v38
  let v40 : IVec S100x100 1 := cmpi .eq v39 v37
  let v41 : FVec Ideal S100x100 .f32 :=
    select v40 (broadcastInDim S100x100 ![] bcast_S_S100x100 (constant (F := Ideal) S_ .f32 0x3F800000#32)) v35
  let v42 : FVec Ideal S100x100 .f32 := Host.sqrt (F := Ideal) v41
  let v43 : FVec Ideal S100x1 .f32 := broadcastInDim S100x1 ![0] bcast_S100_S100x1_0 S
  let v44 : FVec Ideal S1x100 .f32 := broadcastInDim S1x100 ![1] bcast_S100_S1x100_1 S
  let v45 : FVec Ideal S100x100 .f32 := broadcastInDim S100x100 ![0, 1] bcast_S100x1_S100x100_0_1 v43
  let v46 : FVec Ideal S100x100 .f32 := broadcastInDim S100x100 ![0, 1] bcast_S1x100_S100x100_0_1 v44
  let v47 : FVec Ideal S100x100 .f32 := addf v45 v46
  let v48 : FVec Ideal S100x100 .f32 := Host.divf (F := Ideal) v47 v42
  let v49 : FVec Ideal S100x100 .f32 :=
    select v40 (broadcastInDim S100x100 ![] bcast_S_S100x100 (constant (F := Ideal) S_ .f32 0x00000000#32)) v48
  let v50 : FVec Ideal S100 .f32 :=
    Host.reduce (FloatOps.maximumf (F := Ideal)) v49 (constant (F := Ideal) S_ .f32 0xFF800000#32) reducesTo_S100x100_S100_d1 h_S_
  let v51 : FVec Ideal S_ .f32 :=
    Host.reduceAdd (F := Ideal) v50 (constant (F := Ideal) S_ .f32 0x00000000#32) reducesTo_S100_S_d0 h_S_
  Host.divf (F := Ideal) v51 (constant (F := Ideal) S_ .f32 0x42C80000#32)

/-- The operations after the kernel, composed: the pairwise part applied to the two tables as the operations spell
    them. -/
theorem tail_term (W : Valuation τ sig (Elt Ideal)) :
    StableHlo.after (List.flatten [hostOps1, hostOps1_1, hostOps1_2, hostOps1_3, hostOps1_4]) W (Proc.devRef .tc main_v52)
      = tail (Aterm (W (Proc.devRef .tc main_v2))) (Sterm (W (Proc.devRef .tc main_v2))) := by
  simp only [hostOps1, hostOps1_1, hostOps1_2, hostOps1_3, hostOps1_4, List.flatten_cons, List.flatten_nil,
    List.append_nil, List.cons_append, List.nil_append]
  after_results_simp
  simp only [StableHlo.TRef.ofBuf, StableHlo.TRef.toBuf, cast_eq, id_eq]
  rfl

/-- A label row of the 100 used, as a row of the 104-row accumulator. -/
abbrev up (k : Fin 100) : Fin 104 := ⟨k.val, by have := k.isLt; omega⟩
/-- A coordinate column of the 64, as a lane of the 128. -/
abbrev upd (d : Fin 64) : Fin 128 := ⟨d.val, by have := d.isLt; omega⟩

theorem reduces_acc : S2x104x128.Reduces [0] S104x128 := by decide
theorem reduces_row : S100x64.Reduces [1] S100 := by decide

/-- The host's sum over the leading axis, from zero, is the sum of the two partial entries. -/
theorem acc_apply (out : FVec Ideal S2x104x128 .f32) (k : Fin 104) (j : Fin 128) : acc out (ix2 k j) = comb out k j := by
  unfold acc comb
  refine (hostReduceAdd_apply out _ reducesTo_S2x104x128_S104x128_d0 h_S_ (ix2 k j)).trans ?_
  refine (Ideal.hostReduceAdd_single reducesTo_S2x104x128_S104x128_d0 reduces_acc out _ (ix2 k j)).trans ?_
  rw [constant_apply, Ideal.ofBits_zero_f32, zero_add]
  refine (Fin.sum_univ_two (fun x : Fin 2 => out (reduces_acc.lift (ix2 k j) x))).trans ?_
  refine congrArg₂ (· + ·) (congrArg out (funext fun ax => Fin.ext ?_)) (congrArg out (funext fun ax => Fin.ext ?_))
  · match ax with
    | ⟨0, _⟩ => rfl
    | ⟨1, _⟩ => rfl
    | ⟨2, _⟩ => rfl
  · match ax with
    | ⟨0, _⟩ => rfl
    | ⟨1, _⟩ => rfl
    | ⟨2, _⟩ => rfl

/-- The host's sum over the second axis of a 100 by 64 table, from zero, is the sum of the row. -/
theorem rowSum_apply (X : FVec Ideal S100x64 .f32) (k : Fin 100) :
    Host.reduceAdd (F := Ideal) X (constant (F := Ideal) S_ .f32 0x00000000#32) reducesTo_S100x64_S100_d1 h_S_ (ix1 k)
      = ∑ d : Fin 64, X (ix2 k d) := by
  refine (hostReduceAdd_apply X _ reducesTo_S100x64_S100_d1 h_S_ (ix1 k)).trans ?_
  refine (Ideal.hostReduceAdd_single reducesTo_S100x64_S100_d1 reduces_row X _ (ix1 k)).trans ?_
  rw [constant_apply, Ideal.ofBits_zero_f32, zero_add]
  refine Finset.sum_congr rfl fun d _ => congrArg X (funext fun ax => Fin.ext ?_)
  match ax with
  | ⟨0, _⟩ => rfl
  | ⟨1, _⟩ => rfl

theorem sums_apply (out : FVec Ideal S2x104x128 .f32) (k : Fin 100) (d : Fin 64) :
    sums out (ix2 k d) = comb out (up k) (upd d) := by
  unfold sums
  refine (extractStridedSlice_apply _ (acc out) slices_S104x128_S100x64_0_0 (ix2 k d) (ix2 (up k) (upd d)) fun ax => ?_).trans
    (acc_apply out _ _)
  match ax with
  | ⟨0, _⟩ => exact (Nat.zero_add _).symm
  | ⟨1, _⟩ => exact (Nat.zero_add _).symm

/-- A column of the first 100 rows of the accumulator, cut out and read as a vector. -/
theorem col_apply (out : FVec Ideal S2x104x128 .f32) (c : Fin 128) (h : S104x128.Slices ![0, c.val] S100x1) (k : Fin 100) :
    shapeCast S100 (extractStridedSlice S100x1 ![0, c.val] (acc out) h) shapeCasts_S100x1_S100 (ix1 k) = comb out (up k) c := by
  refine (shapeCast_apply _ shapeCasts_S100x1_S100 (ix1 k) (ix2 k (0 : Fin 1)) ?_).trans ?_
  · rw [Shape.rowMajor_val_two, Shape.rowMajor_val_one]
    show k.val * 1 + 0 = k.val
    omega
  · refine (extractStridedSlice_apply _ (acc out) h (ix2 k (0 : Fin 1)) (ix2 (up k) c) fun ax => ?_).trans (acc_apply out _ _)
    match ax with
    | ⟨0, _⟩ => exact (Nat.zero_add _).symm
    | ⟨1, _⟩ => exact (Nat.add_zero _).symm

theorem sqs_apply (out : FVec Ideal S2x104x128 .f32) (k : Fin 100) : sqs out (ix1 k) = comb out (up k) 64 :=
  col_apply out 64 slices_S104x128_S100x1_0_64 k

theorem cnts_apply (out : FVec Ideal S2x104x128 .f32) (k : Fin 100) : cnts out (ix1 k) = comb out (up k) 65 :=
  col_apply out 65 slices_S104x128_S100x1_0_65 k

theorem den_apply (out : FVec Ideal S2x104x128 .f32) (k : Fin 100) : den out (ix1 k) = Cert.DB.c1 + comb out (up k) 65 := by
  unfold den
  refine (addf_apply _ _ _).trans (congrArg₂ (· + ·) ((broadcastInDim_scalar_apply _ _ _).trans rfl) (cnts_apply out k))

/-- The host's square root at an index is the extended reals' square root of the element. -/
theorem hostSqrt_apply {s : Shape} {φ : FTy} (x : FVec Ideal s φ) (i : s.Idx) : Host.sqrt x i = Ideal.sqrt (x i) := rfl

/-- The offset centroid table read off the accumulator: (0.001 + coordinate sum) / (1 + count). -/
def AIK (out : FVec Ideal S2x104x128 .f32) : FVec Ideal S100x64 .f32 := fun i =>
  Ideal.div (Cert.DB.c001 + comb out (up (i 0)) (upd (i 1))) (Cert.DB.c1 + comb out (up (i 0)) 65)

/-- The spread table read off the accumulator: the square root of
    (0.001 + (Σ‖x‖² − 2·(A · Σx) + count·‖A‖²)) / (1 + count). -/
def SIK (out : FVec Ideal S2x104x128 .f32) : FVec Ideal S100 .f32 := fun i =>
  Ideal.sqrt (Ideal.div
    (Cert.DB.c001 + ((comb out (up (i 0)) 64
          - Cert.DB.c2 * ∑ d : Fin 64, AIK out (ix2 (n0 := 100) (i 0) d) * comb out (up (i 0)) (upd d))
        + comb out (up (i 0)) 65 * ∑ d : Fin 64, AIK out (ix2 (n0 := 100) (i 0) d) * AIK out (ix2 (n0 := 100) (i 0) d)))
    (Cert.DB.c1 + comb out (up (i 0)) 65))

/-- A vector of 100 entries broadcast to a column reads its entry at the row. -/
theorem bcast_col_apply (v : FVec Ideal S100 .f32) (k : Fin 100) (u : Fin 1) :
    broadcastInDim S100x1 ![0] bcast_S100_S100x1_0 v (ix2 k u) = v (ix1 k) :=
  broadcastInDim_apply (s := S100) (t := S100x1) ![0] bcast_S100_S100x1_0 v (ix2 k u) (ix1 k) fun ax => by
    match ax with
    | ⟨0, _⟩ => rfl

/-- A column of 100 entries broadcast along its rows to 64 lanes reads the column at the row. -/
theorem bcast_rows_apply (v : FVec Ideal S100x1 .f32) (k : Fin 100) (d : Fin 64) :
    broadcastInDim S100x64 ![0, 1] bcast_S100x1_S100x64_0_1 v (ix2 k d) = v (ix2 k (0 : Fin 1)) :=
  broadcastInDim_apply (s := S100x1) (t := S100x64) ![0, 1] bcast_S100x1_S100x64_0_1 v (ix2 k d) (ix2 k (0 : Fin 1)) fun ax => by
    match ax with
    | ⟨0, _⟩ => rfl
    | ⟨1, _⟩ => rfl

theorem Aterm_apply (out : FVec Ideal S2x104x128 .f32) (k : Fin 100) (d : Fin 64) : Aterm out (ix2 k d) = AIK out (ix2 k d) := by
  show Aterm out (ix2 k d) = Ideal.div (Cert.DB.c001 + comb out (up k) (upd d)) (Cert.DB.c1 + comb out (up k) 65)
  unfold Aterm
  refine (hostDivf_apply _ _ _).trans (congrArg₂ Ideal.div
    ((addf_apply _ _ _).trans (congrArg₂ (· + ·) ((broadcastInDim_scalar_apply _ _ _).trans rfl) (sums_apply out k d))) ?_)
  exact (bcast_rows_apply _ k d).trans ((bcast_col_apply _ k 0).trans (den_apply out k))

theorem Sterm_apply (out : FVec Ideal S2x104x128 .f32) (k : Fin 100) : Sterm out (ix1 k) = SIK out (ix1 k) := by
  show Sterm out (ix1 k) = Ideal.sqrt (Ideal.div
    (Cert.DB.c001 + ((comb out (up k) 64 - Cert.DB.c2 * ∑ d : Fin 64, AIK out (ix2 k d) * comb out (up k) (upd d))
        + comb out (up k) 65 * ∑ d : Fin 64, AIK out (ix2 k d) * AIK out (ix2 k d)))
    (Cert.DB.c1 + comb out (up k) 65))
  unfold Sterm
  refine (hostSqrt_apply _ _).trans (congrArg Ideal.sqrt ((hostDivf_apply _ _ _).trans (congrArg₂ Ideal.div ?_ (den_apply out k))))
  refine (addf_apply _ _ _).trans (congrArg₂ (· + ·) ((broadcastInDim_scalar_apply _ _ _).trans rfl) ?_)
  refine (addf_apply _ _ _).trans (congrArg₂ (· + ·) ?_ ?_)
  · refine (subf_apply _ _ _).trans (congrArg₂ (· - ·) (sqs_apply out k) ?_)
    refine (mulf_apply _ _ _).trans (congrArg₂ (· * ·) ((broadcastInDim_scalar_apply _ _ _).trans rfl) ?_)
    refine (rowSum_apply _ k).trans (Finset.sum_congr rfl fun d _ => ?_)
    exact (mulf_apply _ _ _).trans (congrArg₂ (· * ·) (Aterm_apply out k d) (sums_apply out k d))
  · refine (mulf_apply _ _ _).trans (congrArg₂ (· * ·) (cnts_apply out k) ?_)
    refine (rowSum_apply _ k).trans (Finset.sum_congr rfl fun d _ => ?_)
    exact (mulf_apply _ _ _).trans (congrArg₂ (· * ·) (Aterm_apply out k d) (Aterm_apply out k d))

theorem Aterm_eq (out : FVec Ideal S2x104x128 .f32) : Aterm out = AIK out := by
  funext i
  obtain ⟨k, d, rfl⟩ : ∃ (k : Fin 100) (d : Fin 64), i = ix2 k d := ⟨i 0, i 1, eq_ix2 i⟩
  exact Aterm_apply out k d

theorem Sterm_eq (out : FVec Ideal S2x104x128 .f32) : Sterm out = SIK out := by
  funext i
  obtain ⟨k, rfl⟩ : ∃ k : Fin 100, i = ix1 k := ⟨i 0, eq_ix1 i⟩
  exact Sterm_apply out k

/-- The program's result: the pairwise part applied to the centroid table and the spread table read off the sum of
    the kernel's two partial accumulators. -/
theorem tail_result (W : Valuation τ sig (Elt Ideal)) :
    StableHlo.after (List.flatten [hostOps1, hostOps1_1, hostOps1_2, hostOps1_3, hostOps1_4]) W (Proc.devRef .tc main_v52)
      = tail (AIK (W (Proc.devRef .tc main_v2))) (SIK (W (Proc.devRef .tc main_v2))) := by
  rw [tail_term, Aterm_eq, Sterm_eq]

end Cert.DB.KerHost

end
-- ==== Proof.Regroup.lean ====
/-
  Regrouping the block sums of the per-label accumulator. The label row, padded from 2000000 to 2016000 entries with
  the all-ones word, is cut into 126 blocks of 16000 entries, the blocks being numbered 63·p + i for p < 2, i < 63;
  block t is paired with the data rows of block min(t, 124). A padded entry never matches a label word below 104, so
  only the first 2000000 entries contribute, and for those the data row paired with entry n is row n itself. Hence the
  126 block contributions add up to the sum of the augmented rows over the points carrying the label.
-/
import proofs.«403530_j44985487458968_3_alg».proof.Proof.Spec
import Mathlib.Algebra.BigOperators.Fin
import Mathlib.Logic.Equiv.Fin.Basic

noncomputable section

namespace Cert.DB

open Idealize.ShloMosaic Idealize.ShloMosaic.ValueIdx

/-- Position `b` inside block `a` of `m` blocks of length `n` is a position below `m * n`. -/
theorem block_pos_lt {m n a b : ℕ} (ha : a < m) (hb : b < n) : n * a + b < m * n :=
  calc n * a + b < n * a + n := Nat.add_lt_add_left hb _
    _ = n * (a + 1) := (Nat.mul_succ n a).symm
    _ ≤ n * m := Nat.mul_le_mul_left n ha
    _ = m * n := Nat.mul_comm n m

/-- A sum over `N = m * n` positions is the sum over the `m` blocks of the sums over the `n` positions of each block. -/
theorem sum_blocks_eq {M : Type*} [AddCommMonoid M] {m n N : ℕ} (hN : m * n = N) (f : Fin N → M) :
    ∑ a : Fin m, ∑ b : Fin n, f ⟨n * a.val + b.val, hN ▸ block_pos_lt a.isLt b.isLt⟩ = ∑ c : Fin N, f c := by
  subst hN
  rw [← Finset.sum_product', Finset.univ_product_univ]
  refine Fintype.sum_equiv finProdFinEquiv _ _ (fun ab => ?_)
  congr 1
  exact Fin.ext (by simp [finProdFinEquiv, Nat.add_comm])

/-- A sum over `N` positions whose terms vanish from position `a` on is the sum over the first `a` positions. -/
theorem sum_head_eq {M : Type*} [AddCommMonoid M] {a N : ℕ} (h : a ≤ N) (f : Fin N → M)
    (hz : ∀ n : Fin N, a ≤ n.val → f n = 0) :
    ∑ n : Fin N, f n = ∑ n : Fin a, f ⟨n.val, Nat.lt_of_lt_of_le n.isLt h⟩ := by
  obtain ⟨b, rfl⟩ := Nat.exists_eq_add_of_le h
  rw [Fin.sum_trunc f (fun j => hz _ (by simp))]
  rfl

/-- The padding word is not the word of any label number below 104. -/
theorem pad_ne_word (k : Fin 104) : (0xFFFFFFFF#32 : BitVec 32) ≠ BitVec.ofNat 32 k.val := by
  intro h
  have h2 := congrArg BitVec.toNat h
  simp only [BitVec.toNat_ofNat] at h2
  have := k.isLt
  omega

variable (x : SN64.Idx → EReal) (cl : SN.Idx → BitVec 32)

/-- What entry `n` of the padded label row contributes to accumulator entry `(k, j)`: the augmented data row `n` if
`n` is a real point labelled `k`, and nothing otherwise. -/
def entryTerm (k : Fin 104) (j : Fin 128) (n : Fin 2016000) : EReal :=
  if h : n.val < 2000000 then
    (if cl (ix1 ⟨n.val, h⟩) = BitVec.ofNat 32 k.val then augRow (fun d => x (ix2 ⟨n.val, h⟩ d)) j else 0)
  else 0

/-- The summand of block `t` at its row `r` is the contribution of entry `16000·t + r`. -/
theorem summand_eq_entryTerm (lp : Fin 2016000 → BitVec 32)
    (hlp : ∀ n : Fin 2016000, lp n = if h : n.val < 2000000 then cl (ix1 ⟨n.val, h⟩) else 0xFFFFFFFF#32)
    (k : Fin 104) (j : Fin 128) (t : Fin 126) (r : Fin 16000)
    (h1 : min t.val 124 * 16000 + r.val < 2000000) (h2 : t.val * 16000 + r.val < 2016000)
    (h3 : 16000 * t.val + r.val < 2016000) :
    (if lp ⟨t.val * 16000 + r.val, h2⟩ = BitVec.ofNat 32 k.val
      then augRow (fun d => x (ix2 ⟨min t.val 124 * 16000 + r.val, h1⟩ d)) j else 0)
      = entryTerm x cl k j ⟨16000 * t.val + r.val, h3⟩ := by
  have ht := t.isLt
  have hr := r.isLt
  unfold entryTerm
  rw [hlp]
  by_cases hn : t.val * 16000 + r.val < 2000000
  · have hn' : 16000 * t.val + r.val < 2000000 := by omega
    have hmin : min t.val 124 * 16000 + r.val = 16000 * t.val + r.val := by omega
    rw [dif_pos hn, dif_pos hn']
    have e1 : (⟨t.val * 16000 + r.val, hn⟩ : Fin 2000000) = ⟨16000 * t.val + r.val, hn'⟩ :=
      Fin.mk_eq_mk.mpr (by rw [Nat.mul_comm])
    have e2 : (⟨min t.val 124 * 16000 + r.val, h1⟩ : Fin 2000000) = ⟨16000 * t.val + r.val, hn'⟩ :=
      Fin.mk_eq_mk.mpr hmin
    rw [e1, e2]
  · have hn' : ¬ 16000 * t.val + r.val < 2000000 := by omega
    rw [dif_neg hn, dif_neg hn', if_neg (pad_ne_word k)]

/-- The contribution of block `t` of the padded label row, paired with data block `min t 124`. -/
def blockAt (lp : Fin 2016000 → BitVec 32) (k : Fin 104) (j : Fin 128) (t : Fin 126) : EReal :=
  blockTerm
    (fun r d => x (ix2 ⟨min t.val 124 * 16000 + r.val, by have := r.isLt; have := t.isLt; omega⟩ d))
    (fun r => lp ⟨t.val * 16000 + r.val, by have := r.isLt; have := t.isLt; omega⟩) k j

/-- The padded label row's contributions add up to the sum over the points carrying the label. -/
theorem sum_entryTerm (k : Fin 104) (j : Fin 128) :
    ∑ n : Fin 2016000, entryTerm x cl k j n = segSum x cl k.val j := by
  rw [sum_head_eq (a := 2000000) (by omega) (entryTerm x cl k j)
    (fun n hn => by unfold entryTerm; rw [dif_neg (by omega)])]
  unfold segSum members
  rw [Finset.sum_filter]
  refine Finset.sum_congr rfl (fun n _ => ?_)
  unfold entryTerm
  rw [dif_pos n.isLt]

/-- The 126 block contributions, the blocks numbered `63·p + i` and block `t` paired with data block `min t 124`,
add up to the sum of the augmented rows over the points carrying the label. -/
theorem blocks_eq_segSum (lp : Fin 2016000 → BitVec 32)
    (hlp : ∀ n : Fin 2016000, lp n = if h : n.val < 2000000 then cl (ix1 ⟨n.val, h⟩) else 0xFFFFFFFF#32)
    (k : Fin 104) (j : Fin 128) :
    ∑ p : Fin 2, ∑ i : Fin 63, blockTerm
        (fun r d => x (ix2 ⟨min (63 * p.val + i.val) 124 * 16000 + r.val, by have := r.isLt; have := p.isLt; have := i.isLt; omega⟩ d))
        (fun r => lp ⟨(63 * p.val + i.val) * 16000 + r.val, by have := r.isLt; have := p.isLt; have := i.isLt; omega⟩) k j
      = segSum x cl k.val j := by
  have hA : ∀ t : Fin 126, blockAt x lp k j t = ∑ r : Fin 16000,
      entryTerm x cl k j ⟨16000 * t.val + r.val, block_pos_lt (m := 126) t.isLt r.isLt⟩ := fun t => by
    unfold blockAt blockTerm
    exact Finset.sum_congr rfl (fun r _ => summand_eq_entryTerm x cl lp hlp k j t r _ _ _)
  have hB : ∑ p : Fin 2, ∑ i : Fin 63, blockAt x lp k j ⟨63 * p.val + i.val, block_pos_lt (m := 2) p.isLt i.isLt⟩
      = ∑ t : Fin 126, blockAt x lp k j t := sum_blocks_eq (m := 2) (n := 63) (by norm_num) (blockAt x lp k j)
  have hC : ∑ t : Fin 126, ∑ r : Fin 16000,
      entryTerm x cl k j ⟨16000 * t.val + r.val, block_pos_lt (m := 126) t.isLt r.isLt⟩
      = ∑ n : Fin 2016000, entryTerm x cl k j n :=
    sum_blocks_eq (m := 126) (n := 16000) (by norm_num) (entryTerm x cl k j)
  refine Eq.trans ?_ (sum_entryTerm x cl k j)
  refine Eq.trans ?_ hC
  refine Eq.trans ?_ (Finset.sum_congr rfl (fun t _ => hA t))
  exact hB

end Cert.DB

end
-- ==== Proof.Algebra.lean ====
/-
  The algebra of the mean squared deviation from an offset centroid, over the extended reals.

  For finitely many finite points y_n (n in a finite set M of c points) and ANY finite vector A,
      Σ_n Σ_d (y_nd − A_d)² = Σ_n Σ_d y_nd² − 2 · Σ_d A_d · (Σ_n y_nd) + c · Σ_d A_d²,
  by expanding each square and exchanging the two sums in the cross term. Over the extended reals the same holds as
  soon as every term is the cast of a real: the points by hypothesis, the count because it is a sum of ones, the
  offset centroid because its denominator 1 + c is a real that is at least 1, so the quotient is a product with a real
  reciprocal. Also here: three columns of the summed augmented rows are the coordinate sums, the sum of squared norms
  and the count.
-/
import proofs.«403530_j44985487458968_3_alg».proof.Proof.Spec
import Mathlib.Data.EReal.Operations
import Mathlib.Algebra.BigOperators.Ring.Finset
import Mathlib.Algebra.BigOperators.Group.Finset.Basic
import Mathlib.Tactic.Ring
import Mathlib.Tactic.NormNum
import Mathlib.Tactic.Positivity

noncomputable section

namespace Cert.DB

open Idealize.ShloMosaic Idealize.ShloMosaic.ValueIdx

/-! ### The identity over the reals -/

/-- Expanding the square: the summed squared deviations of the points `y n` (`n ∈ M`) from any vector `A` are the summed
    squared norms, minus twice the pairing of `A` with the coordinate sums, plus the number of points times `‖A‖²`. -/
theorem real_sum_sq_dev {ι : Type*} (M : Finset ι) (y : ι → Fin 64 → ℝ) (A : Fin 64 → ℝ) :
    ∑ n ∈ M, ∑ d : Fin 64, (y n d - A d) * (y n d - A d)
      = ((∑ n ∈ M, ∑ d : Fin 64, y n d * y n d) - 2 * ∑ d : Fin 64, A d * ∑ n ∈ M, y n d)
          + (M.card : ℝ) * ∑ d : Fin 64, A d * A d := by
  -- one point: its squared deviation, split into the three sums over the coordinates
  have h1 : ∀ n, ∑ d : Fin 64, (y n d - A d) * (y n d - A d)
      = ((∑ d : Fin 64, y n d * y n d) - 2 * ∑ d : Fin 64, A d * y n d) + ∑ d : Fin 64, A d * A d := fun n => by
    rw [Finset.mul_sum, ← Finset.sum_sub_distrib, ← Finset.sum_add_distrib]
    exact Finset.sum_congr rfl fun d _ => by ring
  -- the cross term: exchange the sums, then take `A d` out of the inner one
  have h2 : ∑ n ∈ M, ∑ d : Fin 64, A d * y n d = ∑ d : Fin 64, A d * ∑ n ∈ M, y n d := by
    rw [Finset.sum_comm]
    exact Finset.sum_congr rfl fun d _ => (Finset.mul_sum _ _ _).symm
  -- the constant term, once per point
  have h3 : ∑ _n ∈ M, ∑ d : Fin 64, A d * A d = (M.card : ℝ) * ∑ d : Fin 64, A d * A d := by
    rw [Finset.sum_const, nsmul_eq_mul]
  rw [Finset.sum_congr rfl fun n _ => h1 n, Finset.sum_add_distrib, Finset.sum_sub_distrib, ← Finset.mul_sum, h2, h3]

/-! ### Casting finite sums -/

/-- The cast of a finite sum of reals is the sum of the casts. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the extended reals, every term the cast of a real. -/
theorem ereal_sum_sq_dev {ι : Type*} (M : Finset ι) (y : ι → Fin 64 → ℝ) (A : Fin 64 → ℝ) :
    ((∑ n ∈ M, ∑ d : Fin 64, (y n d : EReal) * (y n d : EReal))
          - ((2 : ℝ) : EReal) * ∑ d : Fin 64, (A d : EReal) * ∑ n ∈ M, (y n d : EReal))
        + ((M.card : ℝ) : EReal) * ∑ d : Fin 64, (A d : EReal) * (A d : EReal)
      = ∑ n ∈ M, ∑ d : Fin 64, ((y n d : EReal) - (A d : EReal)) * ((y n d : EReal) - (A d : EReal)) := by
  simp only [← EReal.coe_mul, ← EReal.coe_sub, ← coe_finset_sum, ← EReal.coe_add]
  rw [real_sum_sq_dev]

/-! ### The constants -/

theorem c1_eq : c1 = ((1 : ℝ) : EReal) := by
  unfold c1
  simp [Ideal.ofBits, Ideal.ieee, -EReal.coe_mul]; norm_num

theorem c2_eq : c2 = ((2 : ℝ) : EReal) := by
  unfold c2
  simp [Ideal.ofBits, Ideal.ieee, -EReal.coe_mul]; norm_num

/-- The third literal is a normal number, hence some real; its value plays no part. -/
theorem c001_real : ∃ r : ℝ, c001 = (r : EReal) := by
  unfold c001
  simp [Ideal.ofBits, Ideal.ieee, -EReal.coe_mul]

/-! ### The statistics of one label as casts of reals -/

variable (x : SN64.Idx → EReal) (cl : SN.Idx → BitVec 32)

/-- The count is a sum of ones: the cast of the number of members. -/
theorem cnt_eq (k : ℕ) : cnt cl k = (((members cl k).card : ℝ) : EReal) := by
  have h := coe_finset_sum (members cl k) (fun _ => (1 : ℝ))
  rw [Finset.sum_const, nsmul_eq_mul, mul_one] at h
  rw [h]
  rfl

/-- Finite points have finite offset centroids: the denominator `1 + count` is a real that is at least one, so dividing
    by it is multiplying by a real reciprocal. -/
theorem centroid_real (hx : ∀ i, x i ≠ ⊤ ∧ x i ≠ ⊥) (k : ℕ) :
    ∃ A : Fin 64 → ℝ, ∀ d, centroid x cl k d = (A d : EReal) := by
  obtain ⟨r, hr⟩ := c001_real
  have hne : (1 + ((members cl k).card : ℝ)) ≠ 0 := by positivity
  refine ⟨fun d => (r + ∑ n ∈ members cl k, (x (ix2 n d)).toReal) * (1 / (1 + ((members cl k).card : ℝ))), fun d => ?_⟩
  have hs : sumx x cl k d = ((∑ n ∈ members cl k, (x (ix2 n d)).toReal : ℝ) : EReal) := by
    rw [coe_finset_sum]
    exact Finset.sum_congr rfl fun n _ => (EReal.coe_toReal (hx _).1 (hx _).2).symm
  rw [centroid, hr, hs, c1_eq, cnt_eq, ← EReal.coe_add, ← EReal.coe_add, Ideal.div_coe hne, ← EReal.coe_mul]

/-- The deviation recovered from the three sums is the deviation summed point by point. -/
theorem devK_eq_dev (hx : ∀ i, x i ≠ ⊤ ∧ x i ≠ ⊥) (k : ℕ) : devK x cl k = dev x cl k := by
  obtain ⟨y, hy⟩ : ∃ y : Fin 2000000 → Fin 64 → ℝ, ∀ n d, x (ix2 n d) = (y n d : EReal) :=
    ⟨fun n d => (x (ix2 n d)).toReal, fun n d => (EReal.coe_toReal (hx _).1 (hx _).2).symm⟩
  obtain ⟨A, hA⟩ := centroid_real x cl hx k
  have h := ereal_sum_sq_dev (members cl k) y A
  unfold devK dev sumsq
  simp only [hA, cnt_eq, c2_eq, sumx, hy]
  exact h

/-! ### Three columns of the summed augmented rows -/

theorem segSum_coord (k : ℕ) (d : Fin 64) : segSum x cl k ⟨d.val, by omega⟩ = sumx x cl k d := by
  unfold segSum sumx
  refine Finset.sum_congr rfl fun n _ => ?_
  rw [augRow, dif_pos (show ((⟨d.val, by omega⟩ : Fin 128) : Fin 128).val < 64 from d.isLt)]

theorem segSum_sq (k : ℕ) : segSum x cl k ⟨64, by omega⟩ = sumsq x cl k := by
  unfold segSum sumsq
  refine Finset.sum_congr rfl fun n _ => ?_
  rw [augRow, dif_neg (by decide), if_pos rfl]

theorem segSum_one (k : ℕ) : segSum x cl k ⟨65, by omega⟩ = cnt cl k := by
  unfold segSum cnt
  refine Finset.sum_congr rfl fun n _ => ?_
  rw [augRow, dif_neg (by decide), if_neg (by decide), if_pos rfl]

end Cert.DB

end
-- ==== Proof.KIBridge.lean ====
/-
  From the region's result array to the program's result. The tail of @main adds the two halves' accumulators; entry
  (k, j) of that sum is the sum, over the 126 grid points, of the augmented rows of each point's block labelled k —
  regrouped over the 2016000 padded rows, of which the last 16000 carry the word −1 and so match no label, it is the
  sum of column j of the augmented rows over the points labelled k. Its columns 0 … 63, 64 and 65 are the coordinate
  sums, the sum of squared norms and the count, so the centroid table read off it is the specification's, and the spread
  table is the specification's once the squared deviation is expanded (which needs every entry finite).
-/
import proofs.«403530_j44985487458968_3_alg».proof.Proof.KIValue
import proofs.«403530_j44985487458968_3_alg».proof.Proof.KIBlocks
import proofs.«403530_j44985487458968_3_alg».proof.Proof.KerHost
import proofs.«403530_j44985487458968_3_alg».proof.Proof.Regroup
import proofs.«403530_j44985487458968_3_alg».proof.Proof.Algebra

set_option maxRecDepth 16384

noncomputable section

namespace Cert.KernelIdeal.Bridge

open Cert.KernelIdeal.Gen Cert.KernelIdeal.Fr Cert.KernelIdeal.Val
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The point array and the label array of core `c`, as the specification takes them. -/
abbrev X (c : Dev nD) : Cert.DB.SN64.Idx → EReal := m ((c : Thread nD τ).loc main_arg0)
abbrev L (c : Dev nD) : Cert.DB.SN.Idx → BitVec 32 := m ((c : Thread nD τ).loc main_arg1)

/-- The padded label row the region reads, entry by entry. -/
def lp (c : Dev nD) (n : Fin 2016000) : BitVec 32 := (V m c main_v1 : Vec Ideal S1x2016000 .i32) (ix2 (0 : Fin 1) n)

theorem lp_eq (c : Dev nD) (n : Fin 2016000) :
    lp m c n = if h : n.val < 2000000 then L m c (ix1 ⟨n.val, h⟩) else 0xFFFFFFFF#32 := by
  unfold lp
  have e := Cert.DB.KerHost.labels_padded (fun b => m (c, b))
  exact congrFun e (ix2 (0 : Fin 1) n)

/-- Every entry of a point's block of the point array is an entry of the array: finite when the array is. -/
theorem blocks_finite (hx : ∀ (c : Dev nD) i, X m c i ≠ ⊤ ∧ X m c i ≠ ⊥) (c : Dev nD) (t : Fin cfg0.N) (i : S16000x64.Idx) :
    xblk m c t i ≠ ⊤ ∧ xblk m c t i ≠ ⊥ := by
  obtain ⟨r, d, rfl⟩ : ∃ (r : Fin 16000) (d : Fin 64), i = ix2 r d := ⟨i 0, i 1, eq_ix2 i⟩
  have e := Cert.KernelIdeal.Blk.xblk_apply m c t r d
  have e' : xblk m c t (ix2 r d) = X m c (ix2 ⟨min t.val 124 * 16000 + r.val, by have := r.isLt; omega⟩ d) := by
    refine e.trans ?_
    rw [V_main_arg0 m c]
  rw [e']
  exact hx c _

/-- A point's term over the arrays themselves. -/
theorem term_eq (c : Dev nD) (t : Fin cfg0.N) (k : Fin 104) (j : Fin 128) :
    term m c t k j = Cert.DB.blockTerm
      (fun r d => X m c (ix2 ⟨min t.val 124 * 16000 + r.val, by have := r.isLt; omega⟩ d))
      (fun r => lp m c ⟨t.val * 16000 + r.val, by
        have := r.isLt; have hN : t.val < 126 := lt_of_lt_of_eq t.isLt (show cfg0.N = 126 from N_0); omega⟩) k j := by
  have e1 : (fun (r : Fin 16000) (d : Fin 64) => xblk m c t (ix2 r d))
      = fun r d => X m c (ix2 ⟨min t.val 124 * 16000 + r.val, by have := r.isLt; omega⟩ d) :=
    funext fun r => funext fun d => (Cert.KernelIdeal.Blk.xblk_apply m c t r d).trans (by rw [V_main_arg0 m c])
  have e2 : (fun (r : Fin 16000) => lblk m c t (ix2 (0 : Fin 1) r))
      = fun r => lp m c ⟨t.val * 16000 + r.val, by
        have := r.isLt; have hN : t.val < 126 := lt_of_lt_of_eq t.isLt (show cfg0.N = 126 from N_0); omega⟩ :=
    funext fun r => Cert.KernelIdeal.Blk.lblk_apply m c t r
  unfold term
  rw [e1, e2]

/-- The two halves' accumulators added: column `j` of the augmented rows summed over the points labelled `k`. -/
theorem comb_eq (c : Dev nD) (k : Fin 104) (j : Fin 128) :
    Cert.DB.KerHost.comb (outArr m c) k j = Cert.DB.segSum (X m c) (L m c) k.val j := by
  rw [← Cert.DB.blocks_eq_segSum (X m c) (L m c) (lp m c) (lp_eq m c) k j]
  unfold Cert.DB.KerHost.comb
  rw [Fin.sum_univ_two]
  have hhalf : ∀ p : Fin 2, outArr m c (ix3 p k j) = ∑ i : Fin 63, Cert.DB.blockTerm
      (fun r d => X m c (ix2 ⟨min (63 * p.val + i.val) 124 * 16000 + r.val, by have := r.isLt; have := p.isLt; have := i.isLt; omega⟩ d))
      (fun r => lp m c ⟨(63 * p.val + i.val) * 16000 + r.val, by have := r.isLt; have := p.isLt; have := i.isLt; omega⟩) k j := by
    intro p
    show half m c p k j = _
    unfold half
    rw [Finset.sum_range]
    refine Finset.sum_congr rfl fun i _ => ?_
    have hlt : 63 * p.val + i.val < cfg0.N :=
      lt_of_lt_of_eq (by have := p.isLt; have := i.isLt; omega : 63 * p.val + i.val < 126) (N_0.symm : 126 = cfg0.N)
    rw [termN_of_lt m c _ hlt]
    exact term_eq m c ⟨63 * p.val + i.val, hlt⟩ k j
  rw [hhalf 0, hhalf 1]

/-! ## The two tables -/

theorem up_val (k : Fin 100) : (Cert.DB.KerHost.up k).val = k.val := rfl

/-- The columns of the summed accumulator that the tables use. -/
theorem col_coord (c : Dev nD) (k : Fin 100) (d : Fin 64) :
    Cert.DB.KerHost.comb (outArr m c) (Cert.DB.KerHost.up k) (Cert.DB.KerHost.upd d) = Cert.DB.sumx (X m c) (L m c) k.val d :=
  (comb_eq m c _ _).trans (Cert.DB.segSum_coord (X m c) (L m c) k.val d)
theorem col_sq (c : Dev nD) (k : Fin 100) :
    Cert.DB.KerHost.comb (outArr m c) (Cert.DB.KerHost.up k) 64 = Cert.DB.sumsq (X m c) (L m c) k.val :=
  (comb_eq m c _ _).trans (Cert.DB.segSum_sq (X m c) (L m c) k.val)
theorem col_one (c : Dev nD) (k : Fin 100) :
    Cert.DB.KerHost.comb (outArr m c) (Cert.DB.KerHost.up k) 65 = Cert.DB.cnt (L m c) k.val :=
  (comb_eq m c _ _).trans (Cert.DB.segSum_one (X m c) (L m c) k.val)

/-- The centroid table read off the summed accumulator is the specification's. -/
theorem aik_apply (c : Dev nD) (k : Fin 100) (d : Fin 64) :
    Cert.DB.KerHost.AIK (outArr m c) (ix2 k d) = Cert.DB.centroid (X m c) (L m c) k.val d := by
  show Ideal.div (Cert.DB.c001 + Cert.DB.KerHost.comb (outArr m c) (Cert.DB.KerHost.up k) (Cert.DB.KerHost.upd d))
      (Cert.DB.c1 + Cert.DB.KerHost.comb (outArr m c) (Cert.DB.KerHost.up k) 65) = _
  rw [col_coord, col_one]
  rfl

theorem aik_eq (c : Dev nD) : Cert.DB.KerHost.AIK (outArr m c) = Cert.DB.AI (X m c) (L m c) := by
  funext i
  obtain ⟨k, d, rfl⟩ : ∃ (k : Fin 100) (d : Fin 64), i = ix2 k d := ⟨i 0, i 1, eq_ix2 i⟩
  exact aik_apply m c k d

/-- The spread table likewise, the squared deviation expanded: here every entry of the point array must be finite. -/
theorem sik_eq (hx : ∀ (c : Dev nD) i, X m c i ≠ ⊤ ∧ X m c i ≠ ⊥) (c : Dev nD) :
    Cert.DB.KerHost.SIK (outArr m c) = Cert.DB.SI (X m c) (L m c) := by
  funext i
  obtain ⟨k, rfl⟩ : ∃ k : Fin 100, i = ix1 k := ⟨i 0, eq_ix1 i⟩
  show Ideal.sqrt (Ideal.div
      (Cert.DB.c001 + ((Cert.DB.KerHost.comb (outArr m c) (Cert.DB.KerHost.up k) 64
            - Cert.DB.c2 * ∑ d : Fin 64, Cert.DB.KerHost.AIK (outArr m c) (ix2 (n0 := 100) k d) * Cert.DB.KerHost.comb (outArr m c) (Cert.DB.KerHost.up k) (Cert.DB.KerHost.upd d))
          + Cert.DB.KerHost.comb (outArr m c) (Cert.DB.KerHost.up k) 65 * ∑ d : Fin 64, Cert.DB.KerHost.AIK (outArr m c) (ix2 (n0 := 100) k d) * Cert.DB.KerHost.AIK (outArr m c) (ix2 (n0 := 100) k d)))
      (Cert.DB.c1 + Cert.DB.KerHost.comb (outArr m c) (Cert.DB.KerHost.up k) 65))
    = Ideal.sqrt (Ideal.div (Cert.DB.c001 + Cert.DB.dev (X m c) (L m c) k.val) (Cert.DB.c1 + Cert.DB.cnt (L m c) k.val))
  simp only [aik_apply, col_coord, col_sq, col_one]
  rw [← Cert.DB.devK_eq_dev (X m c) (L m c) (hx c) k.val]
  rfl

/-! ## The program's result -/

/-- The result buffer after the tail: the pairwise part applied to the specification's two tables. -/
theorem result_eq (hx : ∀ (c : Dev nD) i, X m c i ≠ ⊤ ∧ X m c i ≠ ⊥) (c : Dev nD) :
    Pipeline.afterTail₀ cfgs (dats m) 0 (V0 m) [hostOps1, hostOps1_1, hostOps1_2, hostOps1_3, hostOps1_4] c main_v52
      = Cert.DB.KerHost.tail (Cert.DB.AI (X m c) (L m c)) (Cert.DB.SI (X m c) (L m c)) := by
  unfold Pipeline.afterTail₀
  refine (Cert.DB.KerHost.tail_result _).trans ?_
  have hout : Pipeline.withArrays spec0 c (V0 m c) (fun w => (dats m 0 c).arrAt w cfg0.N) (Proc.devRef .tc main_v2) = outArr m c :=
    (Pipeline.withArrays_arr spec0 launch0.win.arr_inj c _ _ 2).trans (final_out m (blocks_finite m hx) c)
  rw [show Pipeline.withArrays (cfgs 0).spec c (V0 m c) (fun w => (dats m 0 c).arrAt w (cfgs 0).N) (Proc.devRef .tc main_v2) = outArr m c from hout,
    aik_eq, sik_eq m hx]

/-- The run of the idealized kernel program, read: the result at the pairwise part of the specification's tables, the
    argument arrays as launched. -/
theorem run (hx : ∀ (c : Dev nD) i, X m c i ≠ ⊤ ∧ X m c i ≠ ⊥) (ρ : Dev nD → PrngReg) :
    θ_run defs (onTc (τ := τ) (main (F := Ideal))) ⟨m, fun _ => 0, ρ⟩ (fun r => ∀ c : Dev nD,
      r.2.mem ((c.tc : Thread nD τ).loc main_v52) = Cert.DB.KerHost.tail (Cert.DB.AI (X m c) (L m c)) (Cert.DB.SI (X m c) (L m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m hx c), (h c).2⟩) (run_result m ρ)

end Cert.KernelIdeal.Bridge

end
-- ==== Proof.RefValue.lean ====
/-
  The reference program's value, at the extended reals, in three parts.

  (1) Its two tables. The reference scatters, with addition, a one per point, each point's 64 coordinates, and each
  point's squared distance to a gathered centroid row, into tables indexed by the 100 labels. An accumulating scatter
  by a column of label words adds update `n` to entry `k` exactly when the start index read off the column — a signed
  word, not clamped — plus the window coordinate lands on `k`; for `k < 100` a signed 32-bit word equals `k` exactly
  when it is the word of `k`, so the updates that land on `k` are those of the points whose label word is the word of
  `k`, and an update with any other label (negative, or 100 and more) is dropped. Hence the count table is one plus the
  number of such points, the sum table their coordinate sums, and their quotient with the offsets is the
  specification's centroid table `AI`. For the spread table the reference first normalises each label (adds 100 to a
  negative one) and gathers the centroid row at the normalised label, clamped into the table; for a point whose label
  word is the word of some `k < 100` the label is not negative, the normalised label is `k` itself and the gathered
  row is row `k`; for every other point the gathered row does not matter, because the last scatter drops that point.
  So the scattered sums of squared deviations are the specification's `dev`, and the spread table is `SI`.

  (2) Its epilogue: the 24 operations after the two tables use nothing but the two tables, and are kept here as one
  function `tail` of them, never opened.

  (3) Its run: every execution ends with the result at `tail (AI x cl) (SI x cl)` of the argument arrays `x`, `cl`,
  and the arguments unchanged.
-/
import proofs.«403530_j44985487458968_3_alg».proof.Proof.Gen.ReferenceIdeal.Run
import proofs.«403530_j44985487458968_3_alg».proof.Proof.Gen.ReferenceIdeal.Read
import proofs.«403530_j44985487458968_3_alg».proof.Proof.Spec
import Idealize.ShloMosaic.Lib.ValueIdx
import Idealize.ShloMosaic.Lib.Pipeline.Value
import Idealize.ShloMosaic.PureOps.Ideal.Laws

noncomputable section

namespace Cert.DB.Ref

open Idealize.ShloMosaic Idealize.ShloMosaic.ValueIdx Idealize.SL.Sem

/-! ## Label words -/

/-- A small natural's 32-bit word reads back, signed, as that natural. -/
theorem toInt_ofNat_small (k : Nat) (hk : k < 2147483648) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- A signed 32-bit word equals a small natural exactly when it is that natural's word. -/
theorem toInt_eq_small (b : BitVec 32) (k : Nat) (hk : k < 2147483648) : b.toInt = (k : Int) ↔ b = BitVec.ofNat 32 k := by
  constructor
  · intro h
    apply BitVec.eq_of_toInt_eq
    rw [h, toInt_ofNat_small k hk]
  · rintro rfl
    exact toInt_ofNat_small k hk

/-- Scatter of a column of row labels into axis 0 of a vector: the dimension record. -/
abbrev colScatter1 (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

theorem colScatter1_start {K N w : Nat} (wf : ScatterDims.WF ⟨1, ![K]⟩ ⟨2, ![N, 1]⟩ ⟨1, ![N]⟩ [] [0] [0] 1)
    (n : Fin N) (idx : IVec ⟨2, ![N, 1]⟩ w) (a : Fin 1) :
    (colScatter1 K N wf).start (ix1 n) idx a = (idx (ix2 n (0 : Fin 1))).toInt := by
  obtain rfl : a = 0 := Subsingleton.elim _ _
  unfold ScatterDims.start
  rw [dif_pos (show (0 : Fin 1) ∈ (colScatter1 K N wf).scatterDimsToOperandDims from List.mem_singleton.mpr rfl)]
  have hsi : (colScatter1 K N wf).siIdx (ix1 n) ⟨List.idxOf (0 : Fin 1) (colScatter1 K N wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem colScatter1_window {K N : Nat} (wf : ScatterDims.WF ⟨1, ![K]⟩ ⟨2, ![N, 1]⟩ ⟨1, ![N]⟩ [] [0] [0] 1)
    (j : (⟨1, ![N]⟩ : Shape).Idx) (a : Fin 1) :
    (colScatter1 K N wf).window j a = 0 := by
  obtain rfl : a = 0 := Subsingleton.elim _ _
  unfold ScatterDims.window
  rw [dif_neg (fun h => by
    have := (List.mem_filter.1 h).2
    simp at this)]

/-- Which update lands on entry `k`: the one whose label word is the word of `k`. -/
theorem colScatter1_resultIdx {K N : Nat} (hK : K ≤ 2147483648)
    (wf : ScatterDims.WF ⟨1, ![K]⟩ ⟨2, ![N, 1]⟩ ⟨1, ![N]⟩ [] [0] [0] 1)
    (n : Fin N) (idx : IVec ⟨2, ![N, 1]⟩ 32) (k : Fin K) :
    (colScatter1 K N wf).resultIdx? (ix1 n) idx = some (ix1 k) ↔ idx (ix2 n (0 : Fin 1)) = BitVec.ofNat 32 k.val := by
  unfold ScatterDims.resultIdx?
  simp only [colScatter1_start, colScatter1_window]
  rw [← toInt_eq_small _ _ (by omega)]
  have hk := k.isLt
  constructor
  · intro h
    split at h
    · rename_i hh
      have h0 := congrFun (Option.some.inj h) 0
      have h1 := congrArg Fin.val h0
      have := hh 0
      simp only [Nat.cast_zero, add_zero] at h1 this
      change (idx (ix2 n 0)).toInt.toNat = k.val at h1
      omega
    · exact absurd h (by simp)
  · intro h
    rw [dif_pos (fun a => by
      obtain rfl : a = 0 := Subsingleton.elim _ _
      show 0 ≤ (idx (ix2 n 0)).toInt + ((0 : Nat) : Int) ∧ (idx (ix2 n 0)).toInt + ((0 : Nat) : Int) < (K : Int)
      omega)]
    congr 1
    funext a
    obtain rfl : a = 0 := Subsingleton.elim _ _
    refine Fin.ext ?_
    show ((idx (ix2 n 0)).toInt + ((0 : Nat) : Int)).toNat = k.val
    omega

/-! ## Rows scattered into a matrix -/

/-- Scatter of rows by a column of row labels into axis 0 of a matrix, the row's coordinate kept: the dimension record. -/
abbrev colScatter2 (K D N : Nat) (wf : ScatterDims.WF ⟨2, ![K, D]⟩ ⟨2, ![N, 1]⟩ ⟨2, ![N, D]⟩ [1] [0] [0] 1) :
    ScatterDims ⟨2, ![K, D]⟩ ⟨2, ![N, 1]⟩ ⟨2, ![N, D]⟩ where
  updateWindowDims := [1]
  insertedWindowDims := [0]
  scatterDimsToOperandDims := [0]
  indexVectorDim := 1
  wf := wf

theorem colScatter2_start0 {K D N w : Nat} (wf : ScatterDims.WF ⟨2, ![K, D]⟩ ⟨2, ![N, 1]⟩ ⟨2, ![N, D]⟩ [1] [0] [0] 1)
    (n : Fin N) (e : Fin D) (idx : IVec ⟨2, ![N, 1]⟩ w) :
    (colScatter2 K D N wf).start (ix2 n e) idx 0 = (idx (ix2 n (0 : Fin 1))).toInt := by
  unfold ScatterDims.start
  rw [dif_pos (show (0 : Fin 2) ∈ (colScatter2 K D N wf).scatterDimsToOperandDims from List.mem_singleton.mpr rfl)]
  have hsi : (colScatter2 K D N wf).siIdx (ix2 n e) ⟨List.idxOf (0 : Fin 2) (colScatter2 K D N wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem colScatter2_start1 {K D N w : Nat} (wf : ScatterDims.WF ⟨2, ![K, D]⟩ ⟨2, ![N, 1]⟩ ⟨2, ![N, D]⟩ [1] [0] [0] 1)
    (j : (⟨2, ![N, D]⟩ : Shape).Idx) (idx : IVec ⟨2, ![N, 1]⟩ w) :
    (colScatter2 K D N wf).start j idx 1 = 0 := by
  unfold ScatterDims.start
  rw [dif_neg (fun h => by simp at h)]

theorem colScatter2_window0 {K D N : Nat} (wf : ScatterDims.WF ⟨2, ![K, D]⟩ ⟨2, ![N, 1]⟩ ⟨2, ![N, D]⟩ [1] [0] [0] 1)
    (j : (⟨2, ![N, D]⟩ : Shape).Idx) :
    (colScatter2 K D N wf).window j 0 = 0 := by
  unfold ScatterDims.window
  rw [dif_neg (fun h => by
    have := (List.mem_filter.1 h).2
    simp at this)]

theorem colScatter2_window1 {K D N : Nat} (wf : ScatterDims.WF ⟨2, ![K, D]⟩ ⟨2, ![N, 1]⟩ ⟨2, ![N, D]⟩ [1] [0] [0] 1)
    (n : Fin N) (e : Fin D) :
    (colScatter2 K D N wf).window (ix2 n e) 1 = e.val := by
  unfold ScatterDims.window
  rw [dif_pos (show (1 : Fin 2) ∈ (colScatter2 K D N wf).sKept from by
    refine List.mem_filter.2 ⟨List.mem_finRange _, ?_⟩
    simp)]
  rfl

/-- Which update lands on entry `(k, d)`: the one in column `d` whose row's label word is the word of `k`. -/
theorem colScatter2_resultIdx {K D N : Nat} (hK : K ≤ 2147483648)
    (wf : ScatterDims.WF ⟨2, ![K, D]⟩ ⟨2, ![N, 1]⟩ ⟨2, ![N, D]⟩ [1] [0] [0] 1)
    (n : Fin N) (e : Fin D) (idx : IVec ⟨2, ![N, 1]⟩ 32) (k : Fin K) (d : Fin D) :
    (colScatter2 K D N wf).resultIdx? (ix2 n e) idx = some (ix2 k d)
      ↔ idx (ix2 n (0 : Fin 1)) = BitVec.ofNat 32 k.val ∧ e = d := by
  unfold ScatterDims.resultIdx?
  rw [← toInt_eq_small _ _ (by omega)]
  have hk := k.isLt
  have he := e.isLt
  have hall : (∀ a : Fin 2, 0 ≤ (colScatter2 K D N wf).start (ix2 n e) idx a + ((colScatter2 K D N wf).window (ix2 n e) a : Int)
        ∧ (colScatter2 K D N wf).start (ix2 n e) idx a + ((colScatter2 K D N wf).window (ix2 n e) a : Int) < ((⟨2, ![K, D]⟩ : Shape).size a : Int))
      ↔ (0 ≤ (idx (ix2 n (0 : Fin 1))).toInt ∧ (idx (ix2 n (0 : Fin 1))).toInt < (K : Int)) := by
    constructor
    · intro h
      have := h 0
      rw [colScatter2_start0, colScatter2_window0] at this
      change 0 ≤ _ + ((0 : Nat) : Int) ∧ _ + ((0 : Nat) : Int) < (K : Int) at this
      omega
    · intro h a
      match a with
      | ⟨0, _⟩ =>
        show 0 ≤ (colScatter2 K D N wf).start (ix2 n e) idx 0 + ((colScatter2 K D N wf).window (ix2 n e) 0 : Int)
          ∧ (colScatter2 K D N wf).start (ix2 n e) idx 0 + ((colScatter2 K D N wf).window (ix2 n e) 0 : Int) < (K : Int)
        rw [colScatter2_start0, colScatter2_window0]; omega
      | ⟨1, _⟩ =>
        show 0 ≤ (colScatter2 K D N wf).start (ix2 n e) idx 1 + ((colScatter2 K D N wf).window (ix2 n e) 1 : Int)
          ∧ (colScatter2 K D N wf).start (ix2 n e) idx 1 + ((colScatter2 K D N wf).window (ix2 n e) 1 : Int) < (D : Int)
        rw [colScatter2_start1, colScatter2_window1]; omega
  constructor
  · intro h
    split at h
    · rename_i hh
      have hr := hall.1 hh
      have h0 := congrArg Fin.val (congrFun (Option.some.inj h) 0)
      have h1 := congrArg Fin.val (congrFun (Option.some.inj h) 1)
      change ((colScatter2 K D N wf).start (ix2 n e) idx 0 + ((colScatter2 K D N wf).window (ix2 n e) 0 : Int)).toNat = k.val at h0
      change ((colScatter2 K D N wf).start (ix2 n e) idx 1 + ((colScatter2 K D N wf).window (ix2 n e) 1 : Int)).toNat = d.val at h1
      rw [colScatter2_start0, colScatter2_window0] at h0
      rw [colScatter2_start1, colScatter2_window1] at h1
      exact ⟨by omega, Fin.ext (by omega)⟩
    · exact absurd h (by simp)
  · rintro ⟨h, rfl⟩
    rw [dif_pos (hall.2 (by omega))]
    congr 1
    funext a
    refine Fin.ext ?_
    match a with
    | ⟨0, _⟩ =>
      show ((colScatter2 K D N wf).start (ix2 n e) idx 0 + ((colScatter2 K D N wf).window (ix2 n e) 0 : Int)).toNat = k.val
      rw [colScatter2_start0, colScatter2_window0]; omega
    | ⟨1, _⟩ =>
      show ((colScatter2 K D N wf).start (ix2 n e) idx 1 + ((colScatter2 K D N wf).window (ix2 n e) 1 : Int)).toNat = e.val
      rw [colScatter2_start1, colScatter2_window1]; omega

/-! ## The accumulating scatters as sums over the labelled points -/

/-- A rank-1 index set is its one coordinate's range, so a sum over it is the sum over the coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The accumulating scatter of a vector of updates by a column of labels, at the extended reals: entry `k` gains the
    updates of the rows whose label word is the word of `k`. -/
theorem hostScatterAdd1_apply {K N : Nat} (hK : K ≤ 2147483648)
    (wf : ScatterDims.WF ⟨1, ![K]⟩ ⟨2, ![N, 1]⟩ ⟨1, ![N]⟩ [] [0] [0] 1)
    (x0 : (⟨1, ![K]⟩ : Shape).Idx → EReal) (idx : IVec ⟨2, ![N, 1]⟩ 32) (upd : (⟨1, ![N]⟩ : Shape).Idx → EReal) (k : Fin K) :
    Ideal.hostScatterAdd (colScatter1 K N wf) x0 idx upd (ix1 k)
      = x0 (ix1 k) + ∑ n ∈ Finset.univ.filter (fun n : Fin N => idx (ix2 n (0 : Fin 1)) = BitVec.ofNat 32 k.val), upd (ix1 n) := by
  unfold Ideal.hostScatterAdd
  refine congrArg (x0 (ix1 k) + ·) ?_
  rw [Finset.sum_filter, Finset.sum_filter, sum_idx1]
  refine Finset.sum_congr rfl fun n _ => ?_
  exact if_congr (colScatter1_resultIdx hK wf n idx k) rfl rfl

/-- The same for rows scattered into a matrix: entry `(k, d)` gains column `d` of the rows labelled `k`. -/
theorem hostScatterAdd2_apply {K D N : Nat} (hK : K ≤ 2147483648)
    (wf : ScatterDims.WF ⟨2, ![K, D]⟩ ⟨2, ![N, 1]⟩ ⟨2, ![N, D]⟩ [1] [0] [0] 1)
    (x0 : (⟨2, ![K, D]⟩ : Shape).Idx → EReal) (idx : IVec ⟨2, ![N, 1]⟩ 32) (upd : (⟨2, ![N, D]⟩ : Shape).Idx → EReal)
    (k : Fin K) (d : Fin D) :
    Ideal.hostScatterAdd (colScatter2 K D N wf) x0 idx upd (ix2 k d)
      = x0 (ix2 k d) + ∑ n ∈ Finset.univ.filter (fun n : Fin N => idx (ix2 n (0 : Fin 1)) = BitVec.ofNat 32 k.val), upd (ix2 n d) := by
  unfold Ideal.hostScatterAdd
  refine congrArg (x0 (ix2 k d) + ·) ?_
  rw [Finset.sum_filter, Finset.sum_filter, sum_idx2]
  refine Finset.sum_congr rfl fun n _ => ?_
  rw [Finset.sum_congr rfl fun e _ => if_congr (colScatter2_resultIdx hK wf n e idx k d) rfl rfl]
  by_cases hq : idx (ix2 n (0 : Fin 1)) = BitVec.ofNat 32 k.val
  · simp only [hq, true_and, if_true]
    rw [Finset.sum_ite_eq' Finset.univ d (fun e => upd (ix2 n e)), if_pos (Finset.mem_univ d)]
  · simp only [hq, false_and, if_false]
    exact Finset.sum_const_zero

/-! ## The row gather, and a label that needs no normalising -/

/-- Gather of whole rows of a matrix at a column of row numbers: the dimension record. -/
abbrev rowGather (K D N : Nat) (wf : GatherDims.WF ⟨2, ![K, D]⟩ ⟨2, ![N, 1]⟩ ⟨2, ![N, D]⟩ [1] [0] [] [0] [] 1 ![1, D]) :
    GatherDims ⟨2, ![K, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-- The gather read at `(n, e)`: column `e` of the row whose number is the start index of `n`, read signed and clamped
    into the table. -/
theorem rowGather_apply {α : Type} {K D N w : Nat} (hK : 0 < K)
    (wf : GatherDims.WF ⟨2, ![K, D]⟩ ⟨2, ![N, 1]⟩ ⟨2, ![N, D]⟩ [1] [0] [] [0] [] 1 ![1, D])
    (A : (⟨2, ![K, D]⟩ : Shape).Idx → α) (idx : IVec ⟨2, ![N, 1]⟩ w) (n : Fin N) (e : Fin D) :
    Host.gather (rowGather K D N wf) A idx (ix2 n e)
      = A (ix2 (⟨min (idx (ix2 n (0 : Fin 1))).toInt.toNat (K - 1), by omega⟩ : Fin K) e) := by
  unfold Host.gather
  congr 1
  funext a
  refine Fin.ext ?_
  match a with
  | ⟨0, _⟩ =>
    show (rowGather K D N wf).start (ix2 n e) idx 0 + (rowGather K D N wf).batchCoord (ix2 n e) 0
      + (rowGather K D N wf).offCoord (ix2 n e) 0 = min (idx (ix2 n (0 : Fin 1))).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather K D N wf).startIndexMap from List.mem_singleton.mpr rfl)]
    have hsi : (rowGather K D N wf).siIdx (ix2 n e) ⟨List.idxOf (0 : Fin 2) (rowGather K D N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather K D N wf).start (ix2 n e) idx 1 + (rowGather K D N wf).batchCoord (ix2 n e) 1
      + (rowGather K D N wf).offCoord (ix2 n e) 1 = e.val
    rw [GatherDims.batchCoord_eq_zero _ _ _ List.not_mem_nil]
    have hs : (rowGather K D N wf).start (ix2 n e) idx 1 = 0 := by
      unfold GatherDims.start
      rw [dif_neg (fun h => by simp at h)]
    have ho : (rowGather K D N wf).offCoord (ix2 n e) 1 = e.val := by
      unfold GatherDims.offCoord
      rw [dif_pos ((GatherDims.mem_sKept _ _).mpr ⟨by simp, List.not_mem_nil⟩)]
      rfl
    rw [hs, ho]
    omega

/-- A label word that is a small natural's is not negative, so normalising it (adding the table size to a negative one)
    leaves it as it is. -/
theorem normalise_small (b t : BitVec 32) (k : Nat) (hk : k < 2147483648) (hb : b = BitVec.ofNat 32 k) :
    Scalar.select (IntOp.cmpi .slt b 0#32) t b = b := by
  have hz : b.toInt = (k : Int) := (toInt_eq_small b k hk).2 hb
  have hs : b.slt 0#32 = false := by
    simp only [BitVec.slt, BitVec.toInt_zero, hz]
    exact decide_eq_false (by omega)
  show Scalar.select (BitVec.ofBool (b.slt 0#32)) t b = b
  rw [hs]
  exact select_zero t b

/-! ## The reference's stages -/

open Cert.ReferenceIdeal Cert.ReferenceIdeal.Gen Cert.ReferenceIdeal.Read

/-- The label vector viewed as a column reads, at row `n`, the label of `n`. -/
theorem labelCol_apply (cl : IVec S2000000 32) (n : Fin 2000000) :
    broadcastInDim S2000000x1 ![0] bcast_S2000000_S2000000x1_0 cl (ix2 n (0 : Fin 1)) = cl (ix1 n) := by
  refine broadcastInDim_apply _ bcast_S2000000_S2000000x1_0 cl _ (ix1 n) (fun a => ?_)
  match a with
  | ⟨0, _⟩ =>
    show n.val = if (2000000 : Nat) = 1 then 0 else n.val
    rw [if_neg (by decide)]

/-- The f32 word of one is the extended real one. -/
theorem c1_eq_one : Cert.DB.c1 = 1 := by
  unfold Cert.DB.c1
  simp [Ideal.ofBits, Ideal.ieee, -EReal.coe_mul]
  norm_num

/-- At the extended reals the host's accumulating scatter is the exact one. -/
theorem scatterAdd_ideal {s si u : Shape} {w : Nat} (d : ScatterDims s si u) (x0 : FVec Ideal s .f32) (idx : IVec si w)
    (upd : FVec Ideal u .f32) : Host.scatterAdd (F := Ideal) d x0 idx upd = Ideal.hostScatterAdd d x0 idx upd := rfl

/-- The program's two scatter records and its gather record are the ones above, at its shapes. -/
theorem scatter1_dims : scatter_S100_S2000000x1_S2000000_n_0_0_1
    = colScatter1 100 2000000 scatter_S100_S2000000x1_S2000000_n_0_0_1_wf := rfl
theorem scatter2_dims : scatter_S100x64_S2000000x1_S2000000x64_1_0_0_1
    = colScatter2 100 64 2000000 scatter_S100x64_S2000000x1_S2000000x64_1_0_0_1_wf := rfl
theorem gather_dims : gather_S100x64_S2000000x1_S2000000x64_1_0_n_n_0_1_164
    = rowGather 100 64 2000000 gather_S100x64_S2000000x1_S2000000x64_1_0_n_n_0_1_164_wf := rfl

/-- The reference's scatter of a vector of updates by the labels into a table of zeros: entry `k` is the sum of the
    updates over the points labelled `k`. -/
theorem scatter1_zero_apply (cl : IVec S2000000 32) (upd : FVec Ideal S2000000 .f32) (k : Fin 100) :
    Host.scatterAdd (F := Ideal) scatter_S100_S2000000x1_S2000000_n_0_0_1
      (broadcastInDim S100 ![] bcast_S_S100 (constant (F := Ideal) S_ .f32 0x00000000#32))
      (broadcastInDim S2000000x1 ![0] bcast_S2000000_S2000000x1_0 cl) upd (ix1 k)
    = ∑ n ∈ Cert.DB.members cl k.val, upd (ix1 n) := by
  rw [scatterAdd_ideal, scatter1_dims, hostScatterAdd1_apply (by omega)]
  have h0 : broadcastInDim S100 ![] bcast_S_S100 (constant (F := Ideal) S_ .f32 0x00000000#32) (ix1 k) = 0 := by
    rw [broadcastInDim_apply _ bcast_S_S100 _ (ix1 k) (fun a => a.elim0) (fun a => a.elim0)]
    exact Ideal.ofBits_zero_f32
  rw [h0, zero_add]
  unfold Cert.DB.members
  refine Finset.sum_congr ?_ (fun _ _ => rfl)
  refine Finset.filter_congr (fun n _ => ?_)
  rw [labelCol_apply]

/-- The same for the rows: entry `(k, d)` is the sum of column `d` over the points labelled `k`. -/
theorem scatter2_zero_apply (cl : IVec S2000000 32) (upd : FVec Ideal S2000000x64 .f32) (k : Fin 100) (d : Fin 64) :
    Host.scatterAdd (F := Ideal) scatter_S100x64_S2000000x1_S2000000x64_1_0_0_1
      (broadcastInDim S100x64 ![] bcast_S_S100x64 (constant (F := Ideal) S_ .f32 0x00000000#32))
      (broadcastInDim S2000000x1 ![0] bcast_S2000000_S2000000x1_0 cl) upd (ix2 k d)
    = ∑ n ∈ Cert.DB.members cl k.val, upd (ix2 n d) := by
  rw [scatterAdd_ideal, scatter2_dims, hostScatterAdd2_apply (by omega)]
  have h0 : broadcastInDim S100x64 ![] bcast_S_S100x64 (constant (F := Ideal) S_ .f32 0x00000000#32) (ix2 k d) = 0 := by
    rw [broadcastInDim_apply _ bcast_S_S100x64 _ (ix2 k d) (fun a => a.elim0) (fun a => a.elim0)]
    exact Ideal.ofBits_zero_f32
  rw [h0, zero_add]
  unfold Cert.DB.members
  refine Finset.sum_congr ?_ (fun _ _ => rfl)
  refine Finset.filter_congr (fun n _ => ?_)
  rw [labelCol_apply]

/-- One plus the count of label `k`. -/
theorem cnt_stage (cl : IVec S2000000 32) (k : Fin 100) :
    val_main_v5 (F := Ideal) cl (ix1 k) = Cert.DB.c1 + Cert.DB.cnt cl k.val := by
  have h4 : val_main_v4 (F := Ideal) (ix1 k) = Cert.DB.c1 := by rw [val_main_v4_apply]; rfl
  have h3 : val_main_v3 (F := Ideal) cl (ix1 k) = Cert.DB.cnt cl k.val := by
    unfold val_main_v3 val_main_v1 val_main_cst_0 val_main_v2 val_main_v0 val_main_cst
    rw [scatter1_zero_apply]
    unfold Cert.DB.cnt
    refine Finset.sum_congr rfl fun n _ => ?_
    rw [broadcastInDim_apply _ bcast_S_S2000000 _ (ix1 n) (fun a => a.elim0) (fun a => a.elim0)]
    exact c1_eq_one
  rw [val_main_v5_apply, h4, h3]
  rfl

/-- The offset coordinate sums of label `k`. -/
theorem sumx_stage (x : FVec Ideal S2000000x64 .f32) (cl : IVec S2000000 32) (k : Fin 100) (d : Fin 64) :
    val_main_v10 (F := Ideal) x cl (ix2 k d) = Cert.DB.c001 + Cert.DB.sumx x cl k.val d := by
  have h9 : val_main_v9 (F := Ideal) (ix2 k d) = Cert.DB.c001 := by rw [val_main_v9_apply]; rfl
  have h8 : val_main_v8 (F := Ideal) x cl (ix2 k d) = Cert.DB.sumx x cl k.val d := by
    unfold val_main_v8 val_main_v6 val_main_cst_2 val_main_v7
    rw [scatter2_zero_apply]
    unfold Cert.DB.sumx
    rfl
  rw [val_main_v10_apply, h9, h8]
  rfl

/-- The reference's centroid table is the specification's. -/
theorem ai_eq (x : FVec Ideal S2000000x64 .f32) (cl : IVec S2000000 32) :
    val_main_v13 (F := Ideal) x cl = Cert.DB.AI x cl := by
  funext i
  obtain ⟨k, d, rfl⟩ : ∃ (k : Fin 100) (d : Fin 64), i = ix2 k d := ⟨i 0, i 1, eq_ix2 i⟩
  have hi : idx_main_v11 (idx_main_v12 (ix2 k d)) = ix1 k := by
    funext a
    match a with
    | ⟨0, _⟩ => rfl
  rw [val_main_v13_apply, Ideal.hostDivf_def, sumx_stage, val_main_v12_apply, val_main_v11_apply, hi, cnt_stage]
  rfl

/-- For a point labelled `k` the normalised label is `k` itself, so the gathered row is row `k` of the table. -/
theorem gather_stage (x : FVec Ideal S2000000x64 .f32) (cl : IVec S2000000 32) (k : Fin 100) (n : Fin 2000000)
    (hn : n ∈ Cert.DB.members cl k.val) (e : Fin 64) :
    val_main_v20 (F := Ideal) x cl (ix2 n e) = val_main_v13 (F := Ideal) x cl (ix2 k e) := by
  have hcl : cl (ix1 n) = BitVec.ofNat 32 k.val := (Finset.mem_filter.1 hn).2
  have hk := k.isLt
  have hi : idx_main_v19 (ix2 n (0 : Fin 1)) = ix1 n := by
    funext a
    match a with
    | ⟨0, _⟩ => rfl
  have h19 : val_main_v19 (F := Ideal) cl (ix2 n (0 : Fin 1)) = BitVec.ofNat 32 k.val := by
    rw [val_main_v19_apply, hi, val_main_v18_apply, val_main_v15_apply, val_main_v14_apply, val_main_c_apply,
      normalise_small _ _ k.val (by omega) hcl]
    exact hcl
  unfold val_main_v20
  generalize val_main_v13 (F := Ideal) x cl = A
  rw [gather_dims, rowGather_apply (by omega)]
  refine congrArg A (congrArg (fun r : Fin 100 => (ix2 r e : S100x64.Idx)) (Fin.ext ?_))
  show min (val_main_v19 (F := Ideal) cl (ix2 n (0 : Fin 1))).toInt.toNat (100 - 1) = k.val
  rw [h19, toInt_ofNat_small _ (by omega)]
  omega

/-- The squared deviation of a point labelled `k` from the centroid of `k`. -/
theorem sq_stage (x : FVec Ideal S2000000x64 .f32) (cl : IVec S2000000 32) (k : Fin 100) (n : Fin 2000000)
    (hn : n ∈ Cert.DB.members cl k.val) :
    val_main_v23 (F := Ideal) x cl (ix1 n)
      = ∑ d : Fin 64, (x (ix2 n d) - Cert.DB.centroid x cl k.val d) * (x (ix2 n d) - Cert.DB.centroid x cl k.val d) := by
  rw [val_main_v23_apply, val_main_cst_5_apply]
  show Ideal.ofBits .f32 0x00000000#32 + _ = _
  rw [Ideal.ofBits_zero_f32, zero_add]
  refine Finset.sum_congr rfl fun e _ => ?_
  have hi : idx_main_v23 (ix1 n) e = ix2 n e := by
    funext a
    match a with
    | ⟨0, _⟩ => rfl
    | ⟨1, _⟩ => rfl
  have h21 : val_main_v21 (F := Ideal) x cl (ix2 n e) = x (ix2 n e) - Cert.DB.centroid x cl k.val e := by
    rw [val_main_v21_apply, gather_stage x cl k n hn e, ai_eq]
    rfl
  rw [hi, val_main_v22_apply, h21]
  rfl

/-- The offset sum of squared deviations of label `k`. -/
theorem dev_stage (x : FVec Ideal S2000000x64 .f32) (cl : IVec S2000000 32) (k : Fin 100) :
    val_main_v28 (F := Ideal) x cl (ix1 k) = Cert.DB.c001 + Cert.DB.dev x cl k.val := by
  have h27 : val_main_v27 (F := Ideal) (ix1 k) = Cert.DB.c001 := by rw [val_main_v27_apply]; rfl
  have h26 : val_main_v26 (F := Ideal) x cl (ix1 k) = Cert.DB.dev x cl k.val := by
    unfold val_main_v26 val_main_v24 val_main_cst_6 val_main_v25
    rw [scatter1_zero_apply]
    unfold Cert.DB.dev
    exact Finset.sum_congr rfl fun n hn => sq_stage x cl k n hn
  rw [val_main_v28_apply, h27, h26]
  rfl

/-- The reference's spread table is the specification's. -/
theorem si_eq (x : FVec Ideal S2000000x64 .f32) (cl : IVec S2000000 32) :
    val_main_v30 (F := Ideal) x cl = Cert.DB.SI x cl := by
  funext i
  obtain ⟨k, rfl⟩ : ∃ k : Fin 100, i = ix1 k := ⟨i 0, eq_ix1 i⟩
  rw [val_main_v30_apply, Ideal.hostUnary_sqrt_def, val_main_v29_apply, Ideal.hostDivf_def, dev_stage, cnt_stage]
  rfl

/-! ## The epilogue and the run -/

/-- The epilogue of the reference: from the centroid table and the spread table to the Davies–Bouldin index. -/
def tail (A : FVec Ideal Cert.ReferenceIdeal.S100x64 .f32) (S : FVec Ideal Cert.ReferenceIdeal.S100 .f32) :
    FVec Ideal Cert.ReferenceIdeal.S_ .f32 :=
  Host.divf (F := Ideal) (Host.reduceAdd (F := Ideal) (Host.reduce FloatOps.maximumf (select (cmpi .eq (addi (iotaInDim S100x100 32 0) (broadcastInDim S100x100 ![] bcast_S_S100x100 (constantI S_ 32 0#32))) (iotaInDim S100x100 32 1)) (broadcastInDim S100x100 ![] bcast_S_S100x100 (id (constant (F := Ideal) S_ .f32 0x00000000#32))) (Host.divf (F := Ideal) (addf (broadcastInDim S100x100 ![0, 1] bcast_S100x1_S100x100_0_1 (broadcastInDim S100x1 ![0] bcast_S100_S100x1_0 S)) (broadcastInDim S100x100 ![0, 1] bcast_S1x100_S100x100_0_1 (broadcastInDim S1x100 ![1] bcast_S100_S1x100_1 S))) (Host.sqrt (F := Ideal) (select (cmpi .eq (addi (iotaInDim S100x100 32 0) (broadcastInDim S100x100 ![] bcast_S_S100x100 (constantI S_ 32 0#32))) (iotaInDim S100x100 32 1)) (broadcastInDim S100x100 ![] bcast_S_S100x100 (id (constant (F := Ideal) S_ .f32 0x3F800000#32))) (Host.reduceAdd (F := Ideal) (mulf (subf (broadcastInDim S100x100x64 ![0, 1, 2] bcast_S100x1x64_S100x100x64_0_1_2 (broadcastInDim S100x1x64 ![0, 2] bcast_S100x64_S100x1x64_0_2 A)) (broadcastInDim S100x100x64 ![0, 1, 2] bcast_S1x100x64_S100x100x64_0_1_2 (broadcastInDim S1x100x64 ![1, 2] bcast_S100x64_S1x100x64_1_2 A))) (subf (broadcastInDim S100x100x64 ![0, 1, 2] bcast_S100x1x64_S100x100x64_0_1_2 (broadcastInDim S100x1x64 ![0, 2] bcast_S100x64_S100x1x64_0_2 A)) (broadcastInDim S100x100x64 ![0, 1, 2] bcast_S1x100x64_S100x100x64_0_1_2 (broadcastInDim S1x100x64 ![1, 2] bcast_S100x64_S1x100x64_1_2 A)))) (constant (F := Ideal) S_ .f32 0x00000000#32) reducesTo_S100x100x64_S100x100_d2 h_S_))))) (constant (F := Ideal) S_ .f32 0xFF800000#32) reducesTo_S100x100_S100_d1 h_S_) (constant (F := Ideal) S_ .f32 0x00000000#32) reducesTo_S100_S_d0 h_S_) (constant (F := Ideal) S_ .f32 0x42C80000#32)

/-- The reference's result is its epilogue applied to its centroid table and its spread table. -/
theorem result_eq_tail (x : FVec Ideal S2000000x64 .f32) (cl : IVec S2000000 32) :
    val_main_v54 (F := Ideal) x cl = tail (val_main_v13 (F := Ideal) x cl) (val_main_v30 (F := Ideal) x cl) := rfl

/-- Every run of the reference ends with its result buffer at the epilogue of the specification's two tables of the
    argument arrays, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v54)
          = tail (Cert.DB.AI (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
              (Cert.DB.SI (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine (θ_run Cert.ReferenceIdeal.defs _ _).mono (fun _ h c => ⟨(h c).1.trans ?_, (h c).2⟩)
    (Cert.ReferenceIdeal.Value.run (F := Ideal) m' ρ')
  rw [val_main_v54_eq, result_eq_tail, ai_eq, si_eq]

end Cert.DB.Ref

end
-- ==== Proof.Finite.lean ====
/-
  The finiteness precondition, read back. The printed predicate takes the absolute value of every entry of the
  [2000000, 64] array, compares it strictly below the word of +∞ and takes the conjunction over all entries. At the
  extended reals |a| is max a (−a), the word 0x7F800000 denotes ⊤, and max a (−a) < ⊤ fails exactly at a = ⊤ and at
  a = ⊥ (where −a = ⊤). So a predicate that comes out true says every entry is neither infinity.
-/
import proofs.«403530_j44985487458968_3_alg».proof.Defs
import proofs.«403530_j44985487458968_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.DB.Fin

open Idealize.ShloMosaic

/-- The rank-0 shape has one index. -/
instance : Subsingleton Cert.Pre_finite_inputs.S_.Idx := ⟨fun _ _ => funext fun d => d.elim0⟩

/-- A one-bit word made from a Boolean is 1 exactly when the Boolean is true. -/
theorem ofBool_eq_one {b : Bool} : BitVec.ofBool b = 1#1 ↔ b = true := by cases b <;> decide

/-- The word of +∞ denotes the top element. -/
theorem ofBits_inf : Ideal.ofBits .f32 0x7F800000#32 = ⊤ := by simp [Ideal.ofBits, Ideal.ieee]

/-- An extended real whose absolute value lies strictly below ⊤ is neither infinity: at ⊤ the maximum is ⊤, and at ⊥
    the negation is ⊤. -/
theorem finite_of_abs_lt_top (a : EReal) (h : max a (-a) < ⊤) : a ≠ ⊤ ∧ a ≠ ⊥ := by
  constructor
  · rintro rfl
    simp at h
  · rintro rfl
    simp at h

/-- The precondition all true: every entry is finite. -/
theorem finite_of_pre (x : FVec Ideal Cert.Pre_finite_inputs.S2000000x64 .f32) (cl : IVec Cert.Pre_finite_inputs.S2000000 32)
    (h : Cert.Pre_finite_inputs.fn (F := Ideal) x cl = fun _ => 1#1) : ∀ i, x i ≠ ⊤ ∧ x i ≠ ⊥ := by
  intro i
  -- the one result of the conjunction over all entries is 1, so the comparison is 1 at entry `i`
  have h0 := congrFun h ValueIdx.ix0
  dsimp only [Cert.Pre_finite_inputs.fn] at h0
  have hi := Host.reduce_andi_all _ _ _ _ _ h0 i
  -- the comparison at `i`: |x i| below the word of +∞
  change Ideal.cmp .olt (max (x i) (-(x i))) (Ideal.ofBits .f32 0x7F800000#32) = 1#1 at hi
  rw [ofBits_inf, Ideal.cmp, ofBool_eq_one, decide_eq_true_eq] at hi
  exact finite_of_abs_lt_top _ hi

end Cert.DB.Fin

end
-- ==== Proof.lean ====
/-
  The kernel scatter-adds augmented rows (64 coordinates, the squared norm, a one) per label with a one-hot matrix
  product, accumulating over a grid of 2 × 63 blocks of 16000 rows, and recovers each label's offset mean squared
  deviation from the three sums by expanding the square; the reference sums the deviations point by point after three
  segment sums. Over the extended reals, for finite points and ANY label words, both end at the same number:

  * each program runs, faults nowhere and leaves its two argument arrays as launched (the kernel programs by the region's
    frame over the three cases of the body: first, middle and last point of a half; the reference by its run);
  * the one rewrite of the ideal pass (a widening of a narrowing dropped) is its rule's statement;
  * the idealized kernel's result array is, entry by entry, the sum over the labelled points of the augmented rows
    (labels outside 0 … 99 match no accumulator row the tail reads, and the 16000 padding labels −1 match none at all,
    just as the reference's segment sums drop every label outside 0 … 99), so its centroid table is the reference's, and
    its spread table is the reference's because Σ‖x − A‖² = Σ‖x‖² − 2·A·Σx + n·‖A‖² for finite x and A; the remaining
    operations (pairwise centroid distances, the ratios, the row maxima, their mean) are the same function of the two
    tables in both programs.
-/
import proofs.«403530_j44985487458968_3_alg».proof.Defs
import proofs.«403530_j44985487458968_3_alg».proof.Proof.Gen.Kernel
import proofs.«403530_j44985487458968_3_alg».proof.Proof.Gen.KernelIdeal
import proofs.«403530_j44985487458968_3_alg».proof.Proof.Gen.ReferenceIdeal
import proofs.«403530_j44985487458968_3_alg».proof.Proof.Gen.Pre_finite_inputs
import proofs.«403530_j44985487458968_3_alg».proof.Proof.Gen.ReferenceIdeal.Run
import proofs.«403530_j44985487458968_3_alg».proof.Proof.Gen.ReferenceIdeal.Read
import proofs.«403530_j44985487458968_3_alg».proof.Proof.KFrame
import proofs.«403530_j44985487458968_3_alg».proof.Proof.KIBridge
import proofs.«403530_j44985487458968_3_alg».proof.Proof.RefValue
import proofs.«403530_j44985487458968_3_alg».proof.Proof.Finite
import Idealize.ShloMosaic.Adequacy
import Idealize.ShloMosaic.Init

noncomputable section

namespace Cert.Proof

open Idealize.ShloMosaic Idealize.SL.Sem

/-- The pairwise part of the two programs is one function of the centroid table and the spread table: the same
    operations in the same order, the outlined selections of the reference being the kernel program's in place. -/
theorem tails_agree (A : FVec Ideal Cert.ReferenceIdeal.S100x64 .f32) (S : FVec Ideal Cert.ReferenceIdeal.S100 .f32) :
    Cert.DB.Ref.tail A S = Cert.DB.KerHost.tail A S := by
  unfold Cert.DB.Ref.tail Cert.DB.KerHost.tail
  rfl

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.DB.Ref.run m ρ)

/-- The ideal pass's one rewrite: a value narrowed to bf16 and widened back is, exactly, itself. -/
theorem preserves : Cert.preserves_Kernel_KernelIdeal :=
  IdealRules.truncf_extf.statement Cert.KernelIdeal.S16000x128 .f32 .bf16

/-- Both idealized programs end at the pairwise part of the same two tables. -/
theorem algebraic : Cert.algebraic_KernelIdeal_ReferenceIdeal := by
  intro m ρ m' ρ' hpre hagree
  have hx : ∀ (c : Dev Cert.KernelIdeal.nD) i, Cert.KernelIdeal.Bridge.X m c i ≠ ⊤ ∧ Cert.KernelIdeal.Bridge.X m c i ≠ ⊥ :=
    fun c => Cert.DB.Fin.finite_of_pre _ _ (hpre c)
  refine ⟨fun c => Cert.DB.KerHost.tail (Cert.DB.AI (Cert.KernelIdeal.Bridge.X m c) (Cert.KernelIdeal.Bridge.L m c))
      (Cert.DB.SI (Cert.KernelIdeal.Bridge.X m c) (Cert.KernelIdeal.Bridge.L m c)), Cert.KernelIdeal.Bridge.run m hx ρ, ?_⟩
  refine (θ_run Cert.ReferenceIdeal.defs _ _).mono (fun _ h c => ⟨(h c).1.trans ?_, (h c).2⟩) (Cert.DB.Ref.run m' ρ')
  rw [(hagree c).1, (hagree c).2]
  exact tails_agree _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
